-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S_ : Shape := ⟨0, ![]⟩

class Facts : Prop where
  bcast_S_S16384x161 : S_.BroadcastsInDim S16384x161 (![] : Fin 0 → Fin S16384x161.rank)
  reducesTo_S16384x161_S_d0_1 : S16384x161.ReducesTo [0, 1] S_
  h_S_ : 0 < S_.numel
  bcast_S_S161x256 : S_.BroadcastsInDim S161x256 (![] : Fin 0 → Fin S161x256.rank)
  reducesTo_S161x256_S_d0_1 : S161x256.ReducesTo [0, 1] S_
  bcast_S_S256 : S_.BroadcastsInDim S256 (![] : Fin 0 → Fin S256.rank)
  reducesTo_S256_S_d0 : S256.ReducesTo [0] S_
  bcast_S_S256x132 : S_.BroadcastsInDim S256x132 (![] : Fin 0 → Fin S256x132.rank)
  reducesTo_S256x132_S_d0_1 : S256x132.ReducesTo [0, 1] S_
  bcast_S_S132 : S_.BroadcastsInDim S132 (![] : Fin 0 → Fin S132.rank)
  reducesTo_S132_S_d0 : S132.ReducesTo [0] S_
  bcast_S_S256x46 : S_.BroadcastsInDim S256x46 (![] : Fin 0 → Fin S256x46.rank)
  reducesTo_S256x46_S_d0_1 : S256x46.ReducesTo [0, 1] S_
  bcast_S_S46 : S_.BroadcastsInDim S46 (![] : Fin 0 → Fin S46.rank)
  reducesTo_S46_S_d0 : S46.ReducesTo [0] S_

variable [Facts]

def fn_part1 {F : FTy → Type} [FloatOps F] (main_arg4 : FVec F S132 .f32) (main_arg5 : FVec F S256x46 .f32) (main_arg6 : FVec F S46 .f32) (main_v13 : IVec S_ 1) (main_v16 : IVec S256x132 1) : IVec S_ 1 :=
  let main_c_5 : IVec S_ 1 := constantI S_ 1 1#1
  let main_v17 : IVec S_ 1 := (fun x v => Host.reduce IntOp.andi x v reducesTo_S256x132_S_d0_1 h_S_) main_v16 main_c_5
  let main_v18 : IVec S_ 1 := andi main_v13 main_v17
  let main_v19 : FVec F S132 .f32 := Host.absf main_arg4
  let main_cst_6 : FVec F S_ .f32 := constant S_ .f32 0x7F800000#32
  let main_v20 : FVec F S132 .f32 := broadcastInDim S132 ![] bcast_S_S132 main_cst_6
  let main_v21 : IVec S132 1 := cmpf .olt main_v19 main_v20
  let main_c_7 : IVec S_ 1 := constantI S_ 1 1#1
  let main_v22 : IVec S_ 1 := (fun x v => Host.reduce IntOp.andi x v reducesTo_S132_S_d0 h_S_) main_v21 main_c_7
  let main_v23 : IVec S_ 1 := andi main_v18 main_v22
  let main_v24 : FVec F S256x46 .f32 := Host.absf main_arg5
  let main_cst_8 : FVec F S_ .f32 := constant S_ .f32 0x7F800000#32
  let main_v25 : FVec F S256x46 .f32 := broadcastInDim S256x46 ![] bcast_S_S256x46 main_cst_8
  let main_v26 : IVec S256x46 1 := cmpf .olt main_v24 main_v25
  let main_c_9 : IVec S_ 1 := constantI S_ 1 1#1
  let main_v27 : IVec S_ 1 := (fun x v => Host.reduce IntOp.andi x v reducesTo_S256x46_S_d0_1 h_S_) main_v26 main_c_9
  let main_v28 : IVec S_ 1 := andi main_v23 main_v27
  let main_v29 : FVec F S46 .f32 := Host.absf main_arg6
  let main_cst_10 : FVec F S_ .f32 := constant S_ .f32 0x7F800000#32
  let main_v30 : FVec F S46 .f32 := broadcastInDim S46 ![] bcast_S_S46 main_cst_10
  let main_v31 : IVec S46 1 := cmpf .olt main_v29 main_v30
  let main_c_11 : IVec S_ 1 := constantI S_ 1 1#1
  let main_v32 : IVec S_ 1 := (fun x v => Host.reduce IntOp.andi x v reducesTo_S46_S_d0 h_S_) main_v31 main_c_11
  let main_v33 : IVec S_ 1 := andi main_v28 main_v32
  main_v33

def fn {F : FTy → Type} [FloatOps F] (main_arg0 : FVec F S16384x161 .f32) (main_arg1 : FVec F S161x256 .f32) (main_arg2 : FVec F S256 .f32) (main_arg3 : FVec F S256x132 .f32) (main_arg4 : FVec F S132 .f32) (main_arg5 : FVec F S256x46 .f32) (main_arg6 : FVec F S46 .f32) : IVec S_ 1 :=
  let main_v0 : FVec F S16384x161 .f32 := Host.absf main_arg0
  let main_cst : FVec F S_ .f32 := constant S_ .f32 0x7F800000#32
  let main_v1 : FVec F S16384x161 .f32 := broadcastInDim S16384x161 ![] bcast_S_S16384x161 main_cst
  let main_v2 : IVec S16384x161 1 := cmpf .olt main_v0 main_v1
  let main_c : IVec S_ 1 := constantI S_ 1 1#1
  let main_v3 : IVec S_ 1 := (fun x v => Host.reduce IntOp.andi x v reducesTo_S16384x161_S_d0_1 h_S_) main_v2 main_c
  let main_v4 : FVec F S161x256 .f32 := Host.absf main_arg1
  let main_cst_0 : FVec F S_ .f32 := constant S_ .f32 0x7F800000#32
  let main_v5 : FVec F S161x256 .f32 := broadcastInDim S161x256 ![] bcast_S_S161x256 main_cst_0
  let main_v6 : IVec S161x256 1 := cmpf .olt main_v4 main_v5
  let main_c_1 : IVec S_ 1 := constantI S_ 1 1#1
  let main_v7 : IVec S_ 1 := (fun x v => Host.reduce IntOp.andi x v reducesTo_S161x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x132 .f32 := Host.absf main_arg3
  let main_cst_4 : FVec F S_ .f32 := constant S_ .f32 0x7F800000#32
  let main_v15 : FVec F S256x132 .f32 := broadcastInDim S256x132 ![] bcast_S_S256x132 main_cst_4
  let main_v16 : IVec S256x132 1 := cmpf .olt main_v14 main_v15
  fn_part1 (F := F) main_arg4 main_arg5 main_arg6 main_v13 main_v16
-- ==== Kernel.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S161x16384 : Shape := ⟨2, ![161, 16384]⟩
abbrev S132x256 : Shape := ⟨2, ![132, 256]⟩
abbrev S46x256 : Shape := ⟨2, ![46, 256]⟩
abbrev S256x1 : Shape := ⟨2, ![256, 1]⟩
abbrev S132x1 : Shape := ⟨2, ![132, 1]⟩
abbrev S46x1 : Shape := ⟨2, ![46, 1]⟩
abbrev S132x16384 : Shape := ⟨2, ![132, 16384]⟩
abbrev S23x16384 : Shape := ⟨2, ![23, 16384]⟩
abbrev S16384x132 : Shape := ⟨2, ![16384, 132]⟩
abbrev S16384x23 : Shape := ⟨2, ![16384, 23]⟩
abbrev S161x2048 : Shape := ⟨2, ![161, 2048]⟩
abbrev S132x2048 : Shape := ⟨2, ![132, 2048]⟩
abbrev S23x2048 : Shape := ⟨2, ![23, 2048]⟩
abbrev S256x2048 : Shape := ⟨2, ![256, 2048]⟩
abbrev S46x2048 : Shape := ⟨2, ![46, 2048]⟩

abbrev nBuf : Space → Nat
  | .hbm => 19
  | .vmem => 14
  | .smem => 0
  | _ => 0

abbrev bufTy : (tb : Table) → Fin (tcTables nBuf tb) → BufTy
  | .hbm, ⟨0, _⟩ => ⟨S16384x161, .f32⟩
  | .hbm, ⟨1, _⟩ => ⟨S161x256, .f32⟩
  | .hbm, ⟨2, _⟩ => ⟨S256, .f32⟩
  | .hbm, ⟨3, _⟩ => ⟨S256x132, .f32⟩
  | .hbm, ⟨4, _⟩ => ⟨S132, .f32⟩
  | .hbm, ⟨5, _⟩ => ⟨S256x46, .f32⟩
  | .hbm, ⟨6, _⟩ => ⟨S46, .f32⟩
  | .hbm, ⟨7, _⟩ => ⟨S161x16384, .f32⟩
  | .hbm, ⟨8, _⟩ => ⟨S132x256, .f32⟩
  | .hbm, ⟨9, _⟩ => ⟨S46x256, .f32⟩
  | .hbm, ⟨10, _⟩ => ⟨S256x1, .f32⟩
  | .hbm, ⟨11, _⟩ => ⟨S132x1, .f32⟩
  | .hbm, ⟨12, _⟩ => ⟨S46x1, .f32⟩
  | .hbm, ⟨13, _⟩ => ⟨S132x16384, .f32⟩
  | .hbm, ⟨14, _⟩ => ⟨S23x16384, .f32⟩
  | .hbm, ⟨15, _⟩ => ⟨S23x16384, .f32⟩
  | .hbm, ⟨16, _⟩ => ⟨S16384x132, .f32⟩
  | .hbm, ⟨17, _⟩ => ⟨S16384x23, .f32⟩
  | .hbm, ⟨18, _⟩ => ⟨S16384x23, .f32⟩
  | .local _ .vmem, ⟨0, _⟩ => ⟨S161x2048, .f32⟩
  | .local _ .vmem, ⟨1, _⟩ => ⟨S161x2048, .f32⟩
  | .local _ .vmem, ⟨2, _⟩ => ⟨S161x256, .f32⟩
  | .local _ .vmem, ⟨3, _⟩ => ⟨S256x1, .f32⟩
  | .local _ .vmem, ⟨4, _⟩ => ⟨S132x256, .f32⟩
  | .local _ .vmem, ⟨5, _⟩ => ⟨S132x1, .f32⟩
  | .local _ .vmem, ⟨6, _⟩ => ⟨S46x256, .f32⟩
  | .local _ .vmem, ⟨7, _⟩ => ⟨S46x1, .f32⟩
  | .local _ .vmem, ⟨8, _⟩ => ⟨S132x2048, .f32⟩
  | .local _ .vmem, ⟨9, _⟩ => ⟨S132x2048, .f32⟩
  | .local _ .vmem, ⟨10, _⟩ => ⟨S23x2048, .f32⟩
  | .local _ .vmem, ⟨11, _⟩ => ⟨S23x2048, .f32⟩
  | .local _ .vmem, ⟨12, _⟩ => ⟨S23x2048, .f32⟩
  | .local _ .vmem, ⟨13, _⟩ => ⟨S23x2048, .f32⟩
  | _, _ => ⟨S16384x161, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_call0_v6_2 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S161x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S161x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S132x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S132x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S46x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S46x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S132x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S23x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S23x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16384x161_S161x16384_1_0 : S16384x161.Transposes [1, 0] S161x16384
  transposes_S256x132_S132x256_1_0 : S256x132.Transposes [1, 0] S132x256
  transposes_S256x46_S46x256_1_0 : S256x46.Transposes [1, 0] S46x256
  shapeCasts_S256_S256x1 : S256.ShapeCasts S256x1
  shapeCasts_S132_S132x1 : S132.ShapeCasts S132x1
  shapeCasts_S46_S46x1 : S46.ShapeCasts S46x1
  transposes_S132x16384_S16384x132_1_0 : S132x16384.Transposes [1, 0] S16384x132
  transposes_S23x16384_S16384x23_1_0 : S23x16384.Transposes [1, 0] S16384x23
  inb_S161x256_S161x256_0_0 : ∀ a, (![0, 0] : Fin 2 → Nat) a + S161x256.size a ≤ S161x256.size a
  h_S161x256 : 0 < S161x256.numel
  inb_S161x2048_S161x2048_0_0 : ∀ a, (![0, 0] : Fin 2 → Nat) a + S161x2048.size a ≤ S161x2048.size a
  h_S161x2048 : 0 < S161x2048.numel
  shapeCasts_S161x2048_S161x2048 : S161x2048.ShapeCasts S161x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S132x256_S132x256_0_0 : ∀ a, (![0, 0] : Fin 2 → Nat) a + S132x256.size a ≤ S132x256.size a
  h_S132x256 : 0 < S132x256.numel
  shapeCasts_S132x256_S132x256 : S132x256.ShapeCasts S132x256
  inb_S132x1_S132x1_0_0 : ∀ a, (![0, 0] : Fin 2 → Nat) a + S132x1.size a ≤ S132x1.size a
  h_S132x1 : 0 < S132x1.numel
  shapeCasts_S132x1_S132x1 : S132x1.ShapeCasts S132x1
  broadcasts_S132x1_S132x2048 : S132x1.Broadcasts S132x2048
  inb_S132x2048_S132x2048_0_0 : ∀ a, (![0, 0] : Fin 2 → Nat) a + S132x2048.size a ≤ S132x2048.size a
  h_S132x2048 : 0 < S132x2048.numel
  inb_S46x256_S46x256_0_0 : ∀ a, (![0, 0] : Fin 2 → Nat) a + S46x256.size a ≤ S46x256.size a
  h_S46x256 : 0 < S46x256.numel
  shapeCasts_S46x256_S46x256 : S46x256.ShapeCasts S46x256
  inb_S46x1_S46x1_0_0 : ∀ a, (![0, 0] : Fin 2 → Nat) a + S46x1.size a ≤ S46x1.size a
  h_S46x1 : 0 < S46x1.numel
  shapeCasts_S46x1_S46x1 : S46x1.ShapeCasts S46x1
  broadcasts_S46x1_S46x2048 : S46x1.Broadcasts S46x2048
  slices_S46x2048_o0_0_S23x2048 : S46x2048.Slices ![0, 0] S23x2048
  inb_S23x2048_S23x2048_0_0 : ∀ a, (![0, 0] : Fin 2 → Nat) a + S23x2048.size a ≤ S23x2048.size a
  h_S23x2048 : 0 < S23x2048.numel
  slices_S46x2048_o23_0_S23x2048 : S46x2048.Slices ![23, 0] S23x2048
  dot_S161x256_S161x2048_S256x2048_0_0_1_1_n_n_wf : DotDims.WF S161x256 S161x2048 S256x2048 [0] [0] [1] [1] [] []
  dot_S132x256_S256x2048_S132x2048_1_0_0_1_n_n_wf : DotDims.WF S132x256 S256x2048 S132x2048 [1] [0] [0] [1] [] []
  dot_S46x256_S256x2048_S46x2048_1_0_0_1_n_n_wf : DotDims.WF S46x256 S256x2048 S46x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S161x2048.size a ≤ S161x16384.size a
  hwx0_0 : ∀ i : grid0.Coords, EltTy.bits .f32 = 32 ∨ (Rect.block (s := S161x16384) S161x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S161x256.size a ≤ S161x256.size a
  hwx0_1 : ∀ i : grid0.Coords, EltTy.bits .f32 = 32 ∨ (Rect.block (s := S161x256) S161x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S132x256.size a ≤ S132x256.size a
  hwx0_3 : ∀ i : grid0.Coords, EltTy.bits .f32 = 32 ∨ (Rect.block (s := S132x256) S132x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S132x1.size a ≤ S132x1.size a
  hwx0_4 : ∀ i : grid0.Coords, EltTy.bits .f32 = 32 ∨ (Rect.block (s := S132x1) S132x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S46x256.size a ≤ S46x256.size a
  hwx0_5 : ∀ i : grid0.Coords, EltTy.bits .f32 = 32 ∨ (Rect.block (s := S46x256) S46x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S46x1.size a ≤ S46x1.size a
  hwx0_6 : ∀ i : grid0.Coords, EltTy.bits .f32 = 32 ∨ (Rect.block (s := S46x1) S46x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S132x2048.size a ≤ S132x16384.size a
  hwx0_7 : ∀ i : grid0.Coords, EltTy.bits .f32 = 32 ∨ (Rect.block (s := S132x16384) S132x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S23x2048.size a ≤ S23x16384.size a
  hwx0_8 : ∀ i : grid0.Coords, EltTy.bits .f32 = 32 ∨ (Rect.block (s := S23x16384) S23x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S23x2048.size a ≤ S23x16384.size a
  hwx0_9 : ∀ i : grid0.Coords, EltTy.bits .f32 = 32 ∨ (Rect.block (s := S23x16384) S23x2048.size (cc0_transform_9 i) (hinb0_9 i)).WholeWords (EltTy.packing .f32)

variable [Facts₀]

def dot_S161x256_S161x2048_S256x2048_0_0_1_1_n_n : DotDims S161x256 S161x2048 S256x2048 where
  lhsContracting := [0]
  rhsContracting := [0]
  lhsNonContracting := [1]
  rhsNonContracting := [1]
  lhsBatch := []
  rhsBatch := []
  wf := dot_S161x256_S161x2048_S256x2048_0_0_1_1_n_n_wf
def dot_S132x256_S256x2048_S132x2048_1_0_0_1_n_n : DotDims S132x256 S256x2048 S132x2048 where
  lhsContracting := [1]
  rhsContracting := [0]
  lhsNonContracting := [0]
  rhsNonContracting := [1]
  lhsBatch := []
  rhsBatch := []
  wf := dot_S132x256_S256x2048_S132x2048_1_0_0_1_n_n_wf
def dot_S46x256_S256x2048_S46x2048_1_0_0_1_n_n : DotDims S46x256 S256x2048 S46x2048 where
  lhsContracting := [1]
  rhsContracting := [0]
  lhsNonContracting := [0]
  rhsNonContracting := [1]
  lhsBatch := []
  rhsBatch := []
  wf := dot_S46x256_S256x2048_S46x2048_1_0_0_1_n_n_wf

abbrev win0_0 : Pipeline.Window sig grid0 :=
  Pipeline.Window.ofSpec (Memref.whole main_call0_v0) S161x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S161x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S132x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S132x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S46x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S46x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_0) S132x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_1) S23x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_2) S23x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x161 : Shape := ⟨2, ![16384, 161]⟩
abbrev S161x256 : Shape := ⟨2, ![161, 256]⟩
abbrev S256 : Shape := ⟨1, ![256]⟩
abbrev S256x132 : Shape := ⟨2, ![256, 132]⟩
abbrev S132 : Shape := ⟨1, ![132]⟩
abbrev S256x46 : Shape := ⟨2, ![256, 46]⟩
abbrev S46 : Shape := ⟨1, ![46]⟩
abbrev S16384x256 : Shape := ⟨2, ![16384, 256]⟩
abbrev S1x256 : Shape := ⟨2, ![1, 256]⟩
abbrev S_ : Shape := ⟨0, ![]⟩
abbrev S16384x132 : Shape := ⟨2, ![16384, 132]⟩
abbrev S1x132 : Shape := ⟨2, ![1, 132]⟩
abbrev S16384x46 : Shape := ⟨2, ![16384, 46]⟩
abbrev S1x46 : Shape := ⟨2, ![1, 46]⟩
abbrev S16384x23 : Shape := ⟨2, ![16384, 23]⟩

abbrev nBuf : Space → Nat
  | .hbm => 44
  | .vmem => 0
  | .smem => 0
  | _ => 0

abbrev bufTy : (tb : Table) → Fin (tcTables nBuf tb) → BufTy
  | .hbm, ⟨0, _⟩ => ⟨S16384x161, .f32⟩
  | .hbm, ⟨1, _⟩ => ⟨S161x256, .f32⟩
  | .hbm, ⟨2, _⟩ => ⟨S256, .f32⟩
  | .hbm, ⟨3, _⟩ => ⟨S256x132, .f32⟩
  | .hbm, ⟨4, _⟩ => ⟨S132, .f32⟩
  | .hbm, ⟨5, _⟩ => ⟨S256x46, .f32⟩
  | .hbm, ⟨6, _⟩ => ⟨S46, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .i1⟩
  | .hbm, ⟨14, _⟩ => ⟨S_, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x132, .f32⟩
  | .hbm, ⟨19, _⟩ => ⟨S1x132, .f32⟩
  | .hbm, ⟨20, _⟩ => ⟨S16384x132, .f32⟩
  | .hbm, ⟨21, _⟩ => ⟨S16384x132, .f32⟩
  | .hbm, ⟨22, _⟩ => ⟨S16384x46, .f32⟩
  | .hbm, ⟨23, _⟩ => ⟨S1x46, .f32⟩
  | .hbm, ⟨24, _⟩ => ⟨S16384x46, .f32⟩
  | .hbm, ⟨25, _⟩ => ⟨S16384x46, .f32⟩
  | .hbm, ⟨26, _⟩ => ⟨S16384x23, .f32⟩
  | .hbm, ⟨27, _⟩ => ⟨S16384x23, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x23, .f32⟩
  | .hbm, ⟨32, _⟩ => ⟨S16384x23, .f32⟩
  | .hbm, ⟨33, _⟩ => ⟨S_, .f32⟩
  | .hbm, ⟨34, _⟩ => ⟨S16384x23, .f32⟩
  | .hbm, ⟨35, _⟩ => ⟨S16384x23, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384x23, .f32⟩
  | .hbm, ⟨40, _⟩ => ⟨S16384x23, .f32⟩
  | .hbm, ⟨41, _⟩ => ⟨S_, .f32⟩
  | .hbm, ⟨42, _⟩ => ⟨S16384x23, .f32⟩
  | .hbm, ⟨43, _⟩ => ⟨S16384x23, .f32⟩
  | _, _ => ⟨S16384x161, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v19 : Ref sig .tc := ⟨.hbm, 35, rfl⟩
abbrev main_cst_3 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S132_S1x132_1 : S132.BroadcastsInDim S1x132 (![1] : Fin 1 → Fin S1x132.rank)
  bcast_S1x132_S16384x132_0_1 : S1x132.BroadcastsInDim S16384x132 (![0, 1] : Fin 2 → Fin S16384x132.rank)
  bcast_S46_S1x46_1 : S46.BroadcastsInDim S1x46 (![1] : Fin 1 → Fin S1x46.rank)
  bcast_S1x46_S16384x46_0_1 : S1x46.BroadcastsInDim S16384x46 (![0, 1] : Fin 2 → Fin S16384x46.rank)
  slices_S16384x46_S16384x23_0_0 : S16384x46.Slices ![0, 0] S16384x23
  slices_S16384x46_S16384x23_0_23 : S16384x46.Slices ![0, 23] S16384x23
  bcast_S_S16384x23 : S_.BroadcastsInDim S16384x23 (![] : Fin 0 → Fin S16384x23.rank)
  dot_S16384x161_S161x256_S16384x256_1_0_0_1_n_n_wf : DotDims.WF S16384x161 S161x256 S16384x256 [1] [0] [0] [1] [] []
  dot_S16384x256_S256x132_S16384x132_1_0_0_1_n_n_wf : DotDims.WF S16384x256 S256x132 S16384x132 [1] [0] [0] [1] [] []
  dot_S16384x256_S256x46_S16384x46_1_0_0_1_n_n_wf : DotDims.WF S16384x256 S256x46 S16384x46 [1] [0] [0] [1] [] []

variable [Facts₀]

def dot_S16384x161_S161x256_S16384x256_1_0_0_1_n_n : DotDims S16384x161 S161x256 S16384x256 where
  lhsContracting := [1]
  rhsContracting := [0]
  lhsNonContracting := [0]
  rhsNonContracting := [1]
  lhsBatch := []
  rhsBatch := []
  wf := dot_S16384x161_S161x256_S16384x256_1_0_0_1_n_n_wf
def dot_S16384x256_S256x132_S16384x132_1_0_0_1_n_n : DotDims S16384x256 S256x132 S16384x132 where
  lhsContracting := [1]
  rhsContracting := [0]
  lhsNonContracting := [0]
  rhsNonContracting := [1]
  lhsBatch := []
  rhsBatch := []
  wf := dot_S16384x256_S256x132_S16384x132_1_0_0_1_n_n_wf
def dot_S16384x256_S256x46_S16384x46_1_0_0_1_n_n : DotDims S16384x256 S256x46 S16384x46 where
  lhsContracting := [1]
  rhsContracting := [0]
  lhsNonContracting := [0]
  rhsNonContracting := [1]
  lhsBatch := []
  rhsBatch := []
  wf := dot_S16384x256_S256x46_S16384x46_1_0_0_1_n_n_wf

class Facts : Prop extends Facts₀ where

variable [Facts]
-- ==== Proof.Policy.lean ====
/-
  The policy network as functions of coordinates, over the extended reals.

  For a batch row `b`: the hidden layer is `h[b, k] = leaky (Σ_r x[b, r] · W1[r, k] + b1[k])`, the discrete head
  `disc[b, j] = Σ_k h[b, k] · Wd[k, j] + bd[j]`, the continuous head `cont[b, j] = Σ_k h[b, k] · Wc[k, j] + bc[j]`,
  the mean its first 23 columns clipped to [-1, 1] and the standard deviation its last 23 clipped to [0, 1].
  The slope of the leaky rectifier and the clip bounds are kept as the words both programs print; none is evaluated.
  The one law used between the two programs is that a product of extended reals commutes (`dot_comm`): one program
  multiplies weight by activation, the other activation by weight.
-/
import Idealize.ShloMosaic.PureOps.Ideal
import Idealize.ShloMosaic.Lib.ValueIdx

noncomputable section

namespace Cert.Policy

open Idealize.ShloMosaic Idealize.ShloMosaic.ValueIdx

/-- The leaky rectifier: `h` where `h ≥ 0`, else the slope's word times `h`. -/
def leaky (h : Ideal .f32) : Ideal .f32 :=
  Scalar.select (FloatOps.cmpf .oge h (FloatOps.ofBits (F := Ideal) .f32 0x00000000#32)) h
    (FloatOps.mulf (FloatOps.ofBits (F := Ideal) .f32 0x3C23D70A#32) h)

/-- A clip between two bounds given as words: the larger of the lower bound and the value, then the smaller of the
    upper bound and that. -/
def clip (lo hi : BitVec 32) (v : Ideal .f32) : Ideal .f32 :=
  FloatOps.minimumf (FloatOps.ofBits (F := Ideal) .f32 hi) (FloatOps.maximumf (FloatOps.ofBits (F := Ideal) .f32 lo) v)

/-- A sum of products does not depend on the order of the two factors. -/
theorem dot_comm {n : Nat} (f g : Fin n → EReal) : ∑ k : Fin n, f k * g k = ∑ k : Fin n, g k * f k :=
  Finset.sum_congr rfl fun k _ => mul_comm (f k) (g k)

section
variable (x : FVec Ideal ⟨2, ![16384, 161]⟩ .f32) (w1 : FVec Ideal ⟨2, ![161, 256]⟩ .f32) (b1 : FVec Ideal ⟨1, ![256]⟩ .f32)

/-- The hidden layer at batch row `b` and unit `k`. -/
def hidden (b : Fin 16384) (k : Fin 256) : EReal :=
  leaky ((∑ r : Fin 161, x (ix2 b r) * w1 (ix2 r k)) + b1 (ix1 k))

variable (wd : FVec Ideal ⟨2, ![256, 132]⟩ .f32) (bd : FVec Ideal ⟨1, ![132]⟩ .f32)

/-- The discrete head at batch row `b` and column `j`. -/
def disc (b : Fin 16384) (j : Fin 132) : EReal :=
  (∑ k : Fin 256, hidden x w1 b1 b k * wd (ix2 k j)) + bd (ix1 j)

variable (wc : FVec Ideal ⟨2, ![256, 46]⟩ .f32) (bc : FVec Ideal ⟨1, ![46]⟩ .f32)

/-- The continuous head at batch row `b` and column `j`. -/
def cont (b : Fin 16384) (j : Fin 46) : EReal :=
  (∑ k : Fin 256, hidden x w1 b1 b k * wc (ix2 k j)) + bc (ix1 j)

/-- The mean: columns 0 … 22 of the continuous head, clipped to [-1, 1]. -/
def mean (b : Fin 16384) (j : Fin 23) : EReal :=
  clip 0xBF800000#32 0x3F800000#32 (cont x w1 b1 wc bc b ⟨j.val, by omega⟩)

/-- The standard deviation: columns 23 … 45 of the continuous head, clipped to [0, 1]. -/
def std (b : Fin 16384) (j : Fin 23) : EReal :=
  clip 0x00000000#32 0x3F800000#32 (cont x w1 b1 wc bc b ⟨23 + j.val, by omega⟩)

/-- The three results as arrays. -/
def discArr : FVec Ideal ⟨2, ![16384, 132]⟩ .f32 := fun i => disc x w1 b1 wd bd (i 0) (i 1)
def meanArr : FVec Ideal ⟨2, ![16384, 23]⟩ .f32 := fun i => mean x w1 b1 wc bc (i 0) (i 1)
def stdArr : FVec Ideal ⟨2, ![16384, 23]⟩ .f32 := fun i => std x w1 b1 wc bc (i 0) (i 1)

end

/-! ## The same network on transposed data

The kernel keeps the batch on the second axis: its input is `xt[r, b] = x[b, r]`, its head weights are
`wdt[j, k] = wd[k, j]` and `wct[j, k] = wc[k, j]`, its biases are columns, and its three results are the transposes of
the network's. Written on those arrays each product has the weight first; `mul_comm` under the sums takes one
form to the other. -/

section Transposed
variable (xt : FVec Ideal ⟨2, ![161, 16384]⟩ .f32) (w1 : FVec Ideal ⟨2, ![161, 256]⟩ .f32) (b1c : FVec Ideal ⟨2, ![256, 1]⟩ .f32)

/-- The hidden layer at unit `k` and batch column `b`. -/
def hiddenT (k : Fin 256) (b : Fin 16384) : EReal :=
  leaky ((∑ r : Fin 161, w1 (ix2 r k) * xt (ix2 r b)) + b1c (ix2 k (0 : Fin 1)))

variable (wdt : FVec Ideal ⟨2, ![132, 256]⟩ .f32) (bdc : FVec Ideal ⟨2, ![132, 1]⟩ .f32)

/-- The discrete head at row `j` and batch column `b`. -/
def discT (j : Fin 132) (b : Fin 16384) : EReal :=
  (∑ k : Fin 256, wdt (ix2 j k) * hiddenT xt w1 b1c k b) + bdc (ix2 j (0 : Fin 1))

variable (wct : FVec Ideal ⟨2, ![46, 256]⟩ .f32) (bcc : FVec Ideal ⟨2, ![46, 1]⟩ .f32)

/-- The continuous head at row `j` and batch column `b`. -/
def contT (j : Fin 46) (b : Fin 16384) : EReal :=
  (∑ k : Fin 256, wct (ix2 j k) * hiddenT xt w1 b1c k b) + bcc (ix2 j (0 : Fin 1))

/-- The mean at row `j` and batch column `b`. -/
def meanT (j : Fin 23) (b : Fin 16384) : EReal :=
  clip 0xBF800000#32 0x3F800000#32 (contT xt w1 b1c wct bcc ⟨j.val, by omega⟩ b)

/-- The standard deviation at row `j` and batch column `b`. -/
def stdT (j : Fin 23) (b : Fin 16384) : EReal :=
  clip 0x00000000#32 0x3F800000#32 (contT xt w1 b1c wct bcc ⟨23 + j.val, by omega⟩ b)

/-- The three transposed results as arrays. -/
def discTArr : FVec Ideal ⟨2, ![132, 16384]⟩ .f32 := fun i => discT xt w1 b1c wdt bdc (i 0) (i 1)
def meanTArr : FVec Ideal ⟨2, ![23, 16384]⟩ .f32 := fun i => meanT xt w1 b1c wct bcc (i 0) (i 1)
def stdTArr : FVec Ideal ⟨2, ![23, 16384]⟩ .f32 := fun i => stdT xt w1 b1c wct bcc (i 0) (i 1)

variable (x : FVec Ideal ⟨2, ![16384, 161]⟩ .f32) (b1 : FVec Ideal ⟨1, ![256]⟩ .f32)
variable (hx : ∀ (r : Fin 161) (b : Fin 16384), xt (ix2 r b) = x (ix2 b r)) (hb1 : ∀ k : Fin 256, b1c (ix2 k (0 : Fin 1)) = b1 (ix1 k))
include hx hb1

/-- The hidden layer is the same number either way. -/
theorem hiddenT_eq (k : Fin 256) (b : Fin 16384) : hiddenT xt w1 b1c k b = hidden x w1 b1 b k := by
  unfold hiddenT hidden
  refine congrArg leaky (congrArg₂ (· + ·) (Finset.sum_congr rfl fun r _ => ?_) (hb1 k))
  rw [hx, mul_comm]

/-- So is the discrete head, when the head's weights and bias are the transposed ones. -/
theorem discT_eq (wd : FVec Ideal ⟨2, ![256, 132]⟩ .f32) (bd : FVec Ideal ⟨1, ![132]⟩ .f32)
    (hw : ∀ (j : Fin 132) (k : Fin 256), wdt (ix2 j k) = wd (ix2 k j)) (hbd : ∀ j : Fin 132, bdc (ix2 j (0 : Fin 1)) = bd (ix1 j))
    (j : Fin 132) (b : Fin 16384) : discT xt w1 b1c wdt bdc j b = disc x w1 b1 wd bd b j := by
  unfold discT disc
  refine congrArg₂ (· + ·) (Finset.sum_congr rfl fun k _ => ?_) (hbd j)
  rw [hiddenT_eq xt w1 b1c x b1 hx hb1, hw, mul_comm]

/-- And the continuous head, hence the mean and the standard deviation. -/
theorem contT_eq (wc : FVec Ideal ⟨2, ![256, 46]⟩ .f32) (bc : FVec Ideal ⟨1, ![46]⟩ .f32)
    (hw : ∀ (j : Fin 46) (k : Fin 256), wct (ix2 j k) = wc (ix2 k j)) (hbc : ∀ j : Fin 46, bcc (ix2 j (0 : Fin 1)) = bc (ix1 j))
    (j : Fin 46) (b : Fin 16384) : contT xt w1 b1c wct bcc j b = cont x w1 b1 wc bc b j := by
  unfold contT cont
  refine congrArg₂ (· + ·) (Finset.sum_congr rfl fun k _ => ?_) (hbc j)
  rw [hiddenT_eq xt w1 b1c x b1 hx hb1, hw, mul_comm]

theorem meanT_eq (wc : FVec Ideal ⟨2, ![256, 46]⟩ .f32) (bc : FVec Ideal ⟨1, ![46]⟩ .f32)
    (hw : ∀ (j : Fin 46) (k : Fin 256), wct (ix2 j k) = wc (ix2 k j)) (hbc : ∀ j : Fin 46, bcc (ix2 j (0 : Fin 1)) = bc (ix1 j))
    (j : Fin 23) (b : Fin 16384) : meanT xt w1 b1c wct bcc j b = mean x w1 b1 wc bc b j := by
  unfold meanT mean
  rw [contT_eq xt w1 b1c wct bcc x b1 hx hb1 wc bc hw hbc]

theorem stdT_eq (wc : FVec Ideal ⟨2, ![256, 46]⟩ .f32) (bc : FVec Ideal ⟨1, ![46]⟩ .f32)
    (hw : ∀ (j : Fin 46) (k : Fin 256), wct (ix2 j k) = wc (ix2 k j)) (hbc : ∀ j : Fin 46, bcc (ix2 j (0 : Fin 1)) = bc (ix1 j))
    (j : Fin 23) (b : Fin 16384) : stdT xt w1 b1c wct bcc j b = std x w1 b1 wc bc b j := by
  unfold stdT std
  rw [contT_eq xt w1 b1c wct bcc x b1 hx hb1 wc bc hw hbc]

end Transposed

end Cert.Policy

end
-- ==== Proof.ReferenceReads.lean ====
/-
  The reference program read index by index: each of its three results, at batch row `b` and column `j`, is the
  policy network's function of the arguments (`Cert.Policy`): the two matrix products are sums over the contracted
  coordinate, the bias rows are spread over the batch, the rectifier and the clips act element by element, and the
  two slices of the continuous head start at columns 0 and 23.
-/
import proofs.«175466_g38886633898314_cont_8to1_b_1584_12_alg».proof.Proof.Gen.ReferenceIdeal.Run
import proofs.«175466_g38886633898314_cont_8to1_b_1584_12_alg».proof.Proof.Gen.ReferenceIdeal.Read
import proofs.«175466_g38886633898314_cont_8to1_b_1584_12_alg».proof.Proof.Policy

noncomputable section

namespace Cert.ReferenceIdeal.Reads

open Cert.ReferenceIdeal Cert.ReferenceIdeal.Read Idealize.ShloMosaic Idealize.ShloMosaic.ValueIdx

variable (x : FVec Ideal S16384x161 .f32) (w1 : FVec Ideal S161x256 .f32) (b1 : FVec Ideal S256 .f32)

/-- The activation the reference feeds both heads, at `(b, k)`, is the hidden layer there. -/
theorem hidden_apply (b : Fin 16384) (k : Fin 256) :
    val_main_v8 (F := Ideal) x w1 b1 (ix2 b k) = Cert.Policy.hidden x w1 b1 b k := by
  have el : ∀ r : Fin 161, lidx_main_v0 (ix2 b k) r = ix2 b r := fun r =>
    funext fun a => Fin.ext (by match a with | ⟨0, _⟩ => rfl | ⟨1, _⟩ => rfl)
  have er : ∀ r : Fin 161, ridx_main_v0 (ix2 b k) r = ix2 r k := fun r =>
    funext fun a => Fin.ext (by match a with | ⟨0, _⟩ => rfl | ⟨1, _⟩ => rfl)
  have eb : idx_main_v1 (idx_main_v2 (ix2 b k)) = ix1 k :=
    funext fun a => Fin.ext (by match a with | ⟨0, _⟩ => rfl)
  have h3 : val_main_v3 (F := Ideal) x w1 b1 (ix2 b k) = (∑ r : Fin 161, x (ix2 b r) * w1 (ix2 r k)) + b1 (ix1 k) := by
    rw [val_main_v3_apply, val_main_v0_apply, val_main_v2_apply, val_main_v1_apply, eb]
    simp only [el, er]
    rfl
  rw [val_main_v8_apply, val_main_v5_apply, val_main_v7_apply, val_main_v4_apply, val_main_v6_apply,
    val_main_cst_apply, val_main_cst_0_apply, h3]
  rfl

variable (wd : FVec Ideal S256x132 .f32) (bd : FVec Ideal S132 .f32)

/-- The reference's first result at `(b, j)` is the discrete head. -/
theorem disc_apply (b : Fin 16384) (j : Fin 132) :
    val_main_v12 (F := Ideal) x w1 b1 wd bd (ix2 b j) = Cert.Policy.disc x w1 b1 wd bd b j := by
  have el : ∀ k : Fin 256, lidx_main_v9 (ix2 b j) k = ix2 b k := fun k =>
    funext fun a => Fin.ext (by match a with | ⟨0, _⟩ => rfl | ⟨1, _⟩ => rfl)
  have er : ∀ k : Fin 256, ridx_main_v9 (ix2 b j) k = ix2 k j := fun k =>
    funext fun a => Fin.ext (by match a with | ⟨0, _⟩ => rfl | ⟨1, _⟩ => rfl)
  have eb : idx_main_v10 (idx_main_v11 (ix2 b j)) = ix1 j :=
    funext fun a => Fin.ext (by match a with | ⟨0, _⟩ => rfl)
  rw [val_main_v12_apply, val_main_v9_apply, val_main_v11_apply, val_main_v10_apply, eb]
  simp only [el, er, hidden_apply]
  rfl

variable (wc : FVec Ideal S256x46 .f32) (bc : FVec Ideal S46 .f32)

/-- The continuous head before the slices, at `(b, j)`. -/
theorem cont_apply (b : Fin 16384) (j : Fin 46) :
    val_main_v16 (F := Ideal) x w1 b1 wc bc (ix2 b j) = Cert.Policy.cont x w1 b1 wc bc b j := by
  have el : ∀ k : Fin 256, lidx_main_v13 (ix2 b j) k = ix2 b k := fun k =>
    funext fun a => Fin.ext (by match a with | ⟨0, _⟩ => rfl | ⟨1, _⟩ => rfl)
  have er : ∀ k : Fin 256, ridx_main_v13 (ix2 b j) k = ix2 k j := fun k =>
    funext fun a => Fin.ext (by match a with | ⟨0, _⟩ => rfl | ⟨1, _⟩ => rfl)
  have eb : idx_main_v14 (idx_main_v15 (ix2 b j)) = ix1 j :=
    funext fun a => Fin.ext (by match a with | ⟨0, _⟩ => rfl)
  rw [val_main_v16_apply, val_main_v13_apply, val_main_v15_apply, val_main_v14_apply, eb]
  simp only [el, er, hidden_apply]
  rfl

/-- The reference's second result at `(b, j)` is the mean. -/
theorem mean_apply (b : Fin 16384) (j : Fin 23) :
    val_main_v19 (F := Ideal) x w1 b1 wc bc (ix2 b j) = Cert.Policy.mean x w1 b1 wc bc b j := by
  have es : idx_main_v17 (ix2 b j) = ix2 b (⟨j.val, by omega⟩ : Fin 46) :=
    funext fun a => Fin.ext (by match a with | ⟨0, _⟩ => rfl | ⟨1, _⟩ => rfl)
  rw [val_main_v19_apply, val_main_call1_v2_apply, val_main_call1_v4_apply, val_main_call1_v1_apply, val_main_v17_apply,
    es, cont_apply]
  rfl

/-- The reference's third result at `(b, j)` is the standard deviation. -/
theorem std_apply (b : Fin 16384) (j : Fin 23) :
    val_main_v20 (F := Ideal) x w1 b1 wc bc (ix2 b j) = Cert.Policy.std x w1 b1 wc bc b j := by
  have es : idx_main_v18 (ix2 b j) = ix2 b (⟨23 + j.val, by omega⟩ : Fin 46) :=
    funext fun a => Fin.ext (by match a with | ⟨0, _⟩ => rfl | ⟨1, _⟩ => rfl)
  rw [val_main_v20_apply, val_main_call2_v2_apply, val_main_call2_v4_apply, val_main_call2_v1_apply, val_main_v18_apply,
    es, cont_apply]
  rfl

/-- The three results as whole arrays. -/
theorem disc_eq : val_main_v12 (F := Ideal) x w1 b1 wd bd = Cert.Policy.discArr x w1 b1 wd bd :=
  funext fun i => by rw [eq_ix2 i]; exact disc_apply x w1 b1 wd bd (i 0) (i 1)
theorem mean_eq : val_main_v19 (F := Ideal) x w1 b1 wc bc = Cert.Policy.meanArr x w1 b1 wc bc :=
  funext fun i => by rw [eq_ix2 i]; exact mean_apply x w1 b1 wc bc (i 0) (i 1)
theorem std_eq : val_main_v20 (F := Ideal) x w1 b1 wc bc = Cert.Policy.stdArr x w1 b1 wc bc :=
  funext fun i => by rw [eq_ix2 i]; exact std_apply x w1 b1 wc bc (i 0) (i 1)

end Cert.ReferenceIdeal.Reads

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  What the kernel's body computes on one block of 2048 batch columns, read index by index at the extended reals.

  The body works on transposed data: a block `xt` of the transposed input (161 features × 2048 batch columns), the
  first layer's weights `w1` (161 × 256), the two heads' transposed weights (132 × 256 and 46 × 256) and the three
  biases as columns. Its three matrix products go into zero accumulators, so each is a plain sum over the contracted
  coordinate; a bias column is spread over the 2048 lanes; the rectifier and the clips act element by element; the
  mean and the standard deviation are rows 0 … 22 and 23 … 45 of the continuous head.
-/
import proofs.«175466_g38886633898314_cont_8to1_b_1584_12_alg».proof.Proof.Gen.KernelIdeal.Skeleton
import proofs.«175466_g38886633898314_cont_8to1_b_1584_12_alg».proof.Proof.LibColumn
import proofs.«175466_g38886633898314_cont_8to1_b_1584_12_alg».proof.Proof.Policy
import Idealize.ShloMosaic.PureOps.Ideal.Laws
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-! ## The three matrix products as sums -/

theorem first_lhs_0 (i : S256x2048.Idx) (q : dot_S161x256_S161x2048_S256x2048_0_0_1_1_n_n.contr.Idx) :
    (dot_S161x256_S161x2048_S256x2048_0_0_1_1_n_n.lhsIdx i q 0).val = (q ⟨0, by decide⟩).val :=
  dot_S161x256_S161x2048_S256x2048_0_0_1_1_n_n.lhsIdx_val_of_single rfl i q
theorem first_lhs_1 (i : S256x2048.Idx) (q : dot_S161x256_S161x2048_S256x2048_0_0_1_1_n_n.contr.Idx) :
    (dot_S161x256_S161x2048_S256x2048_0_0_1_1_n_n.lhsIdx i q 1).val = (i 0).val := by
  unfold DotDims.lhsIdx
  rw [dif_neg (show ¬(1 : Fin S161x256.rank) ∈ dot_S161x256_S161x2048_S256x2048_0_0_1_1_n_n.lhsBatch by decide), dif_pos (show (1 : Fin S161x256.rank) ∈ dot_S161x256_S161x2048_S256x2048_0_0_1_1_n_n.lhsNonContracting by decide)]
  rfl
theorem first_rhs_0 (i : S256x2048.Idx) (q : dot_S161x256_S161x2048_S256x2048_0_0_1_1_n_n.contr.Idx) :
    (dot_S161x256_S161x2048_S256x2048_0_0_1_1_n_n.rhsIdx i q 0).val = (q ⟨0, by decide⟩).val :=
  dot_S161x256_S161x2048_S256x2048_0_0_1_1_n_n.rhsIdx_val_of_single rfl i q
theorem first_rhs_1 (i : S256x2048.Idx) (q : dot_S161x256_S161x2048_S256x2048_0_0_1_1_n_n.contr.Idx) :
    (dot_S161x256_S161x2048_S256x2048_0_0_1_1_n_n.rhsIdx i q 1).val = (i 1).val := by
  unfold DotDims.rhsIdx
  rw [dif_neg (show ¬(1 : Fin S161x2048.rank) ∈ dot_S161x256_S161x2048_S256x2048_0_0_1_1_n_n.rhsBatch by decide), dif_pos (show (1 : Fin S161x2048.rank) ∈ dot_S161x256_S161x2048_S256x2048_0_0_1_1_n_n.rhsNonContracting by decide)]
  rfl

/-- The first layer's product, both operands contracted on their FIRST axis (the input features), into a zero
    accumulator, at `(k, n)`: the sum over the feature `r` of the weight at `(r, k)` times the input at `(r, n)`. -/
theorem first_apply (l : FVec Ideal S161x256 .f32) (r : FVec Ideal S161x2048 .f32) (k : Fin 256) (n : Fin 2048) :
    matmul dot_S161x256_S161x2048_S256x2048_0_0_1_1_n_n none l r (constant S256x2048 .f32 0x00000000#32) (ix2 k n)
      = ∑ q : Fin 161, l (ix2 q k) * r (ix2 q n) := by
  simp only [matmul]
  rw [Ideal.matmul_constant_zero_apply, ← Equiv.sum_comp (contrEquiv1 dot_S161x256_S161x2048_S256x2048_0_0_1_1_n_n 161 rfl rfl).symm]
  refine Finset.sum_congr rfl fun q _ => ?_
  have hq := contrEquiv1_symm_val dot_S161x256_S161x2048_S256x2048_0_0_1_1_n_n 161 rfl rfl q
  have el : dot_S161x256_S161x2048_S256x2048_0_0_1_1_n_n.lhsIdx (ix2 k n) ((contrEquiv1 dot_S161x256_S161x2048_S256x2048_0_0_1_1_n_n 161 rfl rfl).symm q) = ix2 q k := funext fun a => Fin.ext (by
    match a with
    | ⟨0, _⟩ => exact (first_lhs_0 _ _).trans hq
    | ⟨1, _⟩ => exact first_lhs_1 _ _)
  have er : dot_S161x256_S161x2048_S256x2048_0_0_1_1_n_n.rhsIdx (ix2 k n) ((contrEquiv1 dot_S161x256_S161x2048_S256x2048_0_0_1_1_n_n 161 rfl rfl).symm q) = ix2 q n := funext fun a => Fin.ext (by
    match a with
    | ⟨0, _⟩ => exact (first_rhs_0 _ _).trans hq
    | ⟨1, _⟩ => exact first_rhs_1 _ _)
  rw [el, er]

theorem discHead_lhs_0 (i : S132x2048.Idx) (q : dot_S132x256_S256x2048_S132x2048_1_0_0_1_n_n.contr.Idx) :
    (dot_S132x256_S256x2048_S132x2048_1_0_0_1_n_n.lhsIdx i q 0).val = (i 0).val := by
  unfold DotDims.lhsIdx
  rw [dif_neg (show ¬(0 : Fin S132x256.rank) ∈ dot_S132x256_S256x2048_S132x2048_1_0_0_1_n_n.lhsBatch by decide), dif_pos (show (0 : Fin S132x256.rank) ∈ dot_S132x256_S256x2048_S132x2048_1_0_0_1_n_n.lhsNonContracting by decide)]
  rfl
theorem discHead_lhs_1 (i : S132x2048.Idx) (q : dot_S132x256_S256x2048_S132x2048_1_0_0_1_n_n.contr.Idx) :
    (dot_S132x256_S256x2048_S132x2048_1_0_0_1_n_n.lhsIdx i q 1).val = (q ⟨0, by decide⟩).val :=
  dot_S132x256_S256x2048_S132x2048_1_0_0_1_n_n.lhsIdx_val_of_single rfl i q
theorem discHead_rhs_0 (i : S132x2048.Idx) (q : dot_S132x256_S256x2048_S132x2048_1_0_0_1_n_n.contr.Idx) :
    (dot_S132x256_S256x2048_S132x2048_1_0_0_1_n_n.rhsIdx i q 0).val = (q ⟨0, by decide⟩).val :=
  dot_S132x256_S256x2048_S132x2048_1_0_0_1_n_n.rhsIdx_val_of_single rfl i q
theorem discHead_rhs_1 (i : S132x2048.Idx) (q : dot_S132x256_S256x2048_S132x2048_1_0_0_1_n_n.contr.Idx) :
    (dot_S132x256_S256x2048_S132x2048_1_0_0_1_n_n.rhsIdx i q 1).val = (i 1).val := by
  unfold DotDims.rhsIdx
  rw [dif_neg (show ¬(1 : Fin S256x2048.rank) ∈ dot_S132x256_S256x2048_S132x2048_1_0_0_1_n_n.rhsBatch by decide), dif_pos (show (1 : Fin S256x2048.rank) ∈ dot_S132x256_S256x2048_S132x2048_1_0_0_1_n_n.rhsNonContracting by decide)]
  rfl

/-- A head's product with the activations, into a zero accumulator, at `(j, n)`: the sum over the hidden unit `k` of
    the head's weight at `(j, k)` times the activation at `(k, n)`. -/
theorem discHead_apply (l : FVec Ideal S132x256 .f32) (r : FVec Ideal S256x2048 .f32) (j : Fin 132) (n : Fin 2048) :
    matmul dot_S132x256_S256x2048_S132x2048_1_0_0_1_n_n none l r (constant S132x2048 .f32 0x00000000#32) (ix2 j n)
      = ∑ k : Fin 256, l (ix2 j k) * r (ix2 k n) := by
  simp only [matmul]
  rw [Ideal.matmul_constant_zero_apply, ← Equiv.sum_comp (contrEquiv1 dot_S132x256_S256x2048_S132x2048_1_0_0_1_n_n 256 rfl rfl).symm]
  refine Finset.sum_congr rfl fun k _ => ?_
  have hk := contrEquiv1_symm_val dot_S132x256_S256x2048_S132x2048_1_0_0_1_n_n 256 rfl rfl k
  have el : dot_S132x256_S256x2048_S132x2048_1_0_0_1_n_n.lhsIdx (ix2 j n) ((contrEquiv1 dot_S132x256_S256x2048_S132x2048_1_0_0_1_n_n 256 rfl rfl).symm k) = ix2 j k := funext fun a => Fin.ext (by
    match a with
    | ⟨0, _⟩ => exact discHead_lhs_0 _ _
    | ⟨1, _⟩ => exact (discHead_lhs_1 _ _).trans hk)
  have er : dot_S132x256_S256x2048_S132x2048_1_0_0_1_n_n.rhsIdx (ix2 j n) ((contrEquiv1 dot_S132x256_S256x2048_S132x2048_1_0_0_1_n_n 256 rfl rfl).symm k) = ix2 k n := funext fun a => Fin.ext (by
    match a with
    | ⟨0, _⟩ => exact (discHead_rhs_0 _ _).trans hk
    | ⟨1, _⟩ => exact discHead_rhs_1 _ _)
  rw [el, er]

theorem contHead_lhs_0 (i : S46x2048.Idx) (q : dot_S46x256_S256x2048_S46x2048_1_0_0_1_n_n.contr.Idx) :
    (dot_S46x256_S256x2048_S46x2048_1_0_0_1_n_n.lhsIdx i q 0).val = (i 0).val := by
  unfold DotDims.lhsIdx
  rw [dif_neg (show ¬(0 : Fin S46x256.rank) ∈ dot_S46x256_S256x2048_S46x2048_1_0_0_1_n_n.lhsBatch by decide), dif_pos (show (0 : Fin S46x256.rank) ∈ dot_S46x256_S256x2048_S46x2048_1_0_0_1_n_n.lhsNonContracting by decide)]
  rfl
theorem contHead_lhs_1 (i : S46x2048.Idx) (q : dot_S46x256_S256x2048_S46x2048_1_0_0_1_n_n.contr.Idx) :
    (dot_S46x256_S256x2048_S46x2048_1_0_0_1_n_n.lhsIdx i q 1).val = (q ⟨0, by decide⟩).val :=
  dot_S46x256_S256x2048_S46x2048_1_0_0_1_n_n.lhsIdx_val_of_single rfl i q
theorem contHead_rhs_0 (i : S46x2048.Idx) (q : dot_S46x256_S256x2048_S46x2048_1_0_0_1_n_n.contr.Idx) :
    (dot_S46x256_S256x2048_S46x2048_1_0_0_1_n_n.rhsIdx i q 0).val = (q ⟨0, by decide⟩).val :=
  dot_S46x256_S256x2048_S46x2048_1_0_0_1_n_n.rhsIdx_val_of_single rfl i q
theorem contHead_rhs_1 (i : S46x2048.Idx) (q : dot_S46x256_S256x2048_S46x2048_1_0_0_1_n_n.contr.Idx) :
    (dot_S46x256_S256x2048_S46x2048_1_0_0_1_n_n.rhsIdx i q 1).val = (i 1).val := by
  unfold DotDims.rhsIdx
  rw [dif_neg (show ¬(1 : Fin S256x2048.rank) ∈ dot_S46x256_S256x2048_S46x2048_1_0_0_1_n_n.rhsBatch by decide), dif_pos (show (1 : Fin S256x2048.rank) ∈ dot_S46x256_S256x2048_S46x2048_1_0_0_1_n_n.rhsNonContracting by decide)]
  rfl

/-- A head's product with the activations, into a zero accumulator, at `(j, n)`: the sum over the hidden unit `k` of
    the head's weight at `(j, k)` times the activation at `(k, n)`. -/
theorem contHead_apply (l : FVec Ideal S46x256 .f32) (r : FVec Ideal S256x2048 .f32) (j : Fin 46) (n : Fin 2048) :
    matmul dot_S46x256_S256x2048_S46x2048_1_0_0_1_n_n none l r (constant S46x2048 .f32 0x00000000#32) (ix2 j n)
      = ∑ k : Fin 256, l (ix2 j k) * r (ix2 k n) := by
  simp only [matmul]
  rw [Ideal.matmul_constant_zero_apply, ← Equiv.sum_comp (contrEquiv1 dot_S46x256_S256x2048_S46x2048_1_0_0_1_n_n 256 rfl rfl).symm]
  refine Finset.sum_congr rfl fun k _ => ?_
  have hk := contrEquiv1_symm_val dot_S46x256_S256x2048_S46x2048_1_0_0_1_n_n 256 rfl rfl k
  have el : dot_S46x256_S256x2048_S46x2048_1_0_0_1_n_n.lhsIdx (ix2 j n) ((contrEquiv1 dot_S46x256_S256x2048_S46x2048_1_0_0_1_n_n 256 rfl rfl).symm k) = ix2 j k := funext fun a => Fin.ext (by
    match a with
    | ⟨0, _⟩ => exact contHead_lhs_0 _ _
    | ⟨1, _⟩ => exact (contHead_lhs_1 _ _).trans hk)
  have er : dot_S46x256_S256x2048_S46x2048_1_0_0_1_n_n.rhsIdx (ix2 j n) ((contrEquiv1 dot_S46x256_S256x2048_S46x2048_1_0_0_1_n_n 256 rfl rfl).symm k) = ix2 k n := funext fun a => Fin.ext (by
    match a with
    | ⟨0, _⟩ => exact (contHead_rhs_0 _ _).trans hk
    | ⟨1, _⟩ => exact contHead_rhs_1 _ _)
  rw [el, er]

/-! ## The body's values at an index -/

/-- The activations at hidden unit `k` and lane `n`: the rectifier of the first layer's sum plus the unit's bias. -/
theorem hidden_apply (w1 : FVec Ideal S161x256 .f32) (xt : FVec Ideal S161x2048 .f32) (b1c : FVec Ideal S256x1 .f32)
    (k : Fin 256) (n : Fin 2048) :
    k0_pay2 (F := Ideal) w1 xt b1c (ix2 k n)
      = Cert.Policy.leaky ((∑ r : Fin 161, w1 (ix2 r k) * xt (ix2 r n)) + b1c (ix2 k (0 : Fin 1))) := by
  have hM : matmul dot_S161x256_S161x2048_S256x2048_0_0_1_1_n_n none w1 (shapeCast S161x2048 xt shapeCasts_S161x2048_S161x2048)
      (constant S256x2048 .f32 0x00000000#32) (ix2 k n) = ∑ r : Fin 161, w1 (ix2 r k) * xt (ix2 r n) := by
    rw [shapeCast_self]; exact first_apply w1 xt k n
  have hB : broadcastTo S256x2048 (shapeCast S256x1 b1c shapeCasts_S256x1_S256x1) broadcasts_S256x1_S256x2048 (ix2 k n)
      = b1c (ix2 k (0 : Fin 1)) := by
    rw [shapeCast_self]; exact Cert.LibColumn.broadcastTo_a1_ab_apply b1c _ k n
  unfold k0_pay2
  exact congrArg Cert.Policy.leaky (congrArg₂ (· + ·) hM hB)

/-- The discrete head's block at `(j, n)`. -/
theorem disc_apply (w1 : FVec Ideal S161x256 .f32) (xt : FVec Ideal S161x2048 .f32) (b1c : FVec Ideal S256x1 .f32)
    (wdt : FVec Ideal S132x256 .f32) (bdc : FVec Ideal S132x1 .f32) (j : Fin 132) (n : Fin 2048) :
    k0_pay3 (F := Ideal) w1 xt b1c wdt bdc (ix2 j n)
      = (∑ k : Fin 256, wdt (ix2 j k) * k0_pay2 (F := Ideal) w1 xt b1c (ix2 k n)) + bdc (ix2 j (0 : Fin 1)) := by
  have hM : matmul dot_S132x256_S256x2048_S132x2048_1_0_0_1_n_n none (shapeCast S132x256 wdt shapeCasts_S132x256_S132x256)
      (k0_pay2 (F := Ideal) w1 xt b1c) (constant S132x2048 .f32 0x00000000#32) (ix2 j n)
        = ∑ k : Fin 256, wdt (ix2 j k) * k0_pay2 (F := Ideal) w1 xt b1c (ix2 k n) := by
    rw [shapeCast_self]; exact discHead_apply wdt (k0_pay2 (F := Ideal) w1 xt b1c) j n
  have hB : broadcastTo S132x2048 (shapeCast S132x1 bdc shapeCasts_S132x1_S132x1) broadcasts_S132x1_S132x2048 (ix2 j n)
      = bdc (ix2 j (0 : Fin 1)) := by
    rw [shapeCast_self]; exact Cert.LibColumn.broadcastTo_a1_ab_apply bdc _ j n
  unfold k0_pay3
  exact congrArg₂ (· + ·) hM hB

/-- The continuous head's block at `(j, n)`. -/
theorem cont_apply (w1 : FVec Ideal S161x256 .f32) (xt : FVec Ideal S161x2048 .f32) (b1c : FVec Ideal S256x1 .f32)
    (wct : FVec Ideal S46x256 .f32) (bcc : FVec Ideal S46x1 .f32) (j : Fin 46) (n : Fin 2048) :
    k0_pay4 (F := Ideal) w1 xt b1c wct bcc (ix2 j n)
      = (∑ k : Fin 256, wct (ix2 j k) * k0_pay2 (F := Ideal) w1 xt b1c (ix2 k n)) + bcc (ix2 j (0 : Fin 1)) := by
  have hM : matmul dot_S46x256_S256x2048_S46x2048_1_0_0_1_n_n none (shapeCast S46x256 wct shapeCasts_S46x256_S46x256)
      (k0_pay2 (F := Ideal) w1 xt b1c) (constant S46x2048 .f32 0x00000000#32) (ix2 j n)
        = ∑ k : Fin 256, wct (ix2 j k) * k0_pay2 (F := Ideal) w1 xt b1c (ix2 k n) := by
    rw [shapeCast_self]; exact contHead_apply wct (k0_pay2 (F := Ideal) w1 xt b1c) j n
  have hB : broadcastTo S46x2048 (shapeCast S46x1 bcc shapeCasts_S46x1_S46x1) broadcasts_S46x1_S46x2048 (ix2 j n)
      = bcc (ix2 j (0 : Fin 1)) := by
    rw [shapeCast_self]; exact Cert.LibColumn.broadcastTo_a1_ab_apply bcc _ j n
  unfold k0_pay4
  exact congrArg₂ (· + ·) hM hB

/-- The mean's block at `(j, n)`: row `j` of the continuous head, clipped to [-1, 1]. -/
theorem mean_apply (w1 : FVec Ideal S161x256 .f32) (xt : FVec Ideal S161x2048 .f32) (b1c : FVec Ideal S256x1 .f32)
    (wct : FVec Ideal S46x256 .f32) (bcc : FVec Ideal S46x1 .f32) (j : Fin 23) (n : Fin 2048) :
    k0_pay5 (F := Ideal) w1 xt b1c wct bcc (ix2 j n)
      = Cert.Policy.clip 0xBF800000#32 0x3F800000#32 (k0_pay4 (F := Ideal) w1 xt b1c wct bcc (ix2 (⟨j.val, by omega⟩ : Fin 46) n)) := by
  have hS : extractStridedSlice S23x2048 ![0, 0] (k0_pay4 (F := Ideal) w1 xt b1c wct bcc) slices_S46x2048_o0_0_S23x2048 (ix2 j n)
      = k0_pay4 (F := Ideal) w1 xt b1c wct bcc (ix2 (⟨j.val, by omega⟩ : Fin 46) n) :=
    extractStridedSlice_apply _ _ _ _ _ fun a => by
      match a with
      | ⟨0, _⟩ => show j.val = 0 + j.val; omega
      | ⟨1, _⟩ => show n.val = 0 + n.val; omega
  unfold k0_pay5
  exact congrArg (Cert.Policy.clip 0xBF800000#32 0x3F800000#32) hS

/-- The standard deviation's block at `(j, n)`: row `23 + j` of the continuous head, clipped to [0, 1]. -/
theorem std_apply (v27 : FVec Ideal S46x2048 .f32) (j : Fin 23) (n : Fin 2048) :
    k0_pay1 (F := Ideal) v27 (ix2 j n)
      = Cert.Policy.clip 0x00000000#32 0x3F800000#32 (v27 (ix2 (⟨23 + j.val, by omega⟩ : Fin 46) n)) := by
  have hS : extractStridedSlice S23x2048 ![23, 0] v27 slices_S46x2048_o23_0_S23x2048 (ix2 j n)
      = v27 (ix2 (⟨23 + j.val, by omega⟩ : Fin 46) n) :=
    extractStridedSlice_apply _ _ _ _ _ fun a => by
      match a with
      | ⟨0, _⟩ => show 23 + j.val = 23 + j.val; rfl
      | ⟨1, _⟩ => show n.val = 0 + n.val; omega
  unfold k0_pay1
  exact congrArg (Cert.Policy.clip 0x00000000#32 0x3F800000#32) hS

/-! ## A block of 2048 batch columns against the whole arrays

Block `t` of the transposed input holds batch columns `2048 t … 2048 t + 2047` (`hx`); the weights and biases are whole.
So what the body computes at lane `n` of block `t` is the transposed network at batch column `b = 2048 t + n`. -/

section Columns
variable (w1 : FVec Ideal S161x256 .f32) (xtb : FVec Ideal S161x2048 .f32) (xt : FVec Ideal S161x16384 .f32)
  (b1c : FVec Ideal S256x1 .f32) (t : Nat)
  (hx : ∀ (r : Fin 161) (n : Fin 2048) (b : Fin 16384), b.val = 2048 * t + n.val → xtb (ix2 r n) = xt (ix2 r b))
include hx

theorem hidden_block (k : Fin 256) (n : Fin 2048) (b : Fin 16384) (hb : b.val = 2048 * t + n.val) :
    k0_pay2 (F := Ideal) w1 xtb b1c (ix2 k n) = Cert.Policy.hiddenT xt w1 b1c k b := by
  rw [hidden_apply]
  unfold Cert.Policy.hiddenT
  refine congrArg Cert.Policy.leaky (congrArg₂ (· + ·) (Finset.sum_congr rfl fun r _ => ?_) rfl)
  rw [hx r n b hb]

theorem disc_block (wdt : FVec Ideal S132x256 .f32) (bdc : FVec Ideal S132x1 .f32)
    (j : Fin 132) (n : Fin 2048) (b : Fin 16384) (hb : b.val = 2048 * t + n.val) :
    k0_pay3 (F := Ideal) w1 xtb b1c wdt bdc (ix2 j n) = Cert.Policy.discT xt w1 b1c wdt bdc j b := by
  rw [disc_apply]
  unfold Cert.Policy.discT
  refine congrArg₂ (· + ·) (Finset.sum_congr rfl fun k _ => ?_) rfl
  rw [hidden_block w1 xtb xt b1c t hx k n b hb]

theorem cont_block (wct : FVec Ideal S46x256 .f32) (bcc : FVec Ideal S46x1 .f32)
    (j : Fin 46) (n : Fin 2048) (b : Fin 16384) (hb : b.val = 2048 * t + n.val) :
    k0_pay4 (F := Ideal) w1 xtb b1c wct bcc (ix2 j n) = Cert.Policy.contT xt w1 b1c wct bcc j b := by
  rw [cont_apply]
  unfold Cert.Policy.contT
  refine congrArg₂ (· + ·) (Finset.sum_congr rfl fun k _ => ?_) rfl
  rw [hidden_block w1 xtb xt b1c t hx k n b hb]

theorem mean_block (wct : FVec Ideal S46x256 .f32) (bcc : FVec Ideal S46x1 .f32)
    (j : Fin 23) (n : Fin 2048) (b : Fin 16384) (hb : b.val = 2048 * t + n.val) :
    k0_pay5 (F := Ideal) w1 xtb b1c wct bcc (ix2 j n) = Cert.Policy.meanT xt w1 b1c wct bcc j b := by
  rw [mean_apply, cont_block w1 xtb xt b1c t hx wct bcc _ n b hb]
  rfl

theorem std_block (wct : FVec Ideal S46x256 .f32) (bcc : FVec Ideal S46x1 .f32)
    (j : Fin 23) (n : Fin 2048) (b : Fin 16384) (hb : b.val = 2048 * t + n.val) :
    k0_pay1 (F := Ideal) (k0_pay4 (F := Ideal) w1 xtb b1c wct bcc) (ix2 j n) = Cert.Policy.stdT xt w1 b1c wct bcc j b := by
  rw [std_apply, cont_block w1 xtb xt b1c t hx wct bcc _ n b hb]
  rfl

/-- The same three facts with the array index given by its coordinates: row `j`, batch column `2048 t + n`. -/
theorem disc_block_arr (wdt : FVec Ideal S132x256 .f32) (bdc : FVec Ideal S132x1 .f32)
    (j : Fin 132) (n : Fin 2048) (i : S132x16384.Idx) (hi0 : (i 0).val = j.val) (hi1 : (i 1).val = 2048 * t + n.val) :
    k0_pay3 (F := Ideal) w1 xtb b1c wdt bdc (ix2 j n) = Cert.Policy.discTArr xt w1 b1c wdt bdc i := by
  have hj : j = i 0 := Fin.ext hi0.symm
  subst hj
  exact disc_block w1 xtb xt b1c t hx wdt bdc (i 0) n (i 1) hi1

theorem mean_block_arr (wct : FVec Ideal S46x256 .f32) (bcc : FVec Ideal S46x1 .f32)
    (j : Fin 23) (n : Fin 2048) (i : S23x16384.Idx) (hi0 : (i 0).val = j.val) (hi1 : (i 1).val = 2048 * t + n.val) :
    k0_pay5 (F := Ideal) w1 xtb b1c wct bcc (ix2 j n) = Cert.Policy.meanTArr xt w1 b1c wct bcc i := by
  have hj : j = i 0 := Fin.ext hi0.symm
  subst hj
  exact mean_block w1 xtb xt b1c t hx wct bcc (i 0) n (i 1) hi1

theorem std_block_arr (wct : FVec Ideal S46x256 .f32) (bcc : FVec Ideal S46x1 .f32)
    (j : Fin 23) (n : Fin 2048) (i : S23x16384.Idx) (hi0 : (i 0).val = j.val) (hi1 : (i 1).val = 2048 * t + n.val) :
    k0_pay1 (F := Ideal) (k0_pay4 (F := Ideal) w1 xtb b1c wct bcc) (ix2 j n) = Cert.Policy.stdTArr xt w1 b1c wct bcc i := by
  have hj : j = i 0 := Fin.ext hi0.symm
  subst hj
  exact std_block w1 xtb xt b1c t hx wct bcc (i 0) n (i 1) hi1

end Columns

end Cert.KernelIdeal.Block

end
-- ==== Proof.KernelArrays.lean ====
/-
  From the blocks the kernel writes back to the arrays the program ends with.

  The pipeline runs the body at 8 grid points. At point `t` the input window holds batch columns `2048 t … 2048 t + 2047`
  of the transposed input, the six weight and bias windows hold their whole arrays, and each of the three result
  windows is written back to the same batch columns of its array. So each result array, after the run, is the
  transposed network's array (`Cert.Policy.discTArr`, `meanTArr`, `stdTArr`) of the arrays the region found; those
  are the host's transposes and column reshapes of the arguments, and the program's three results are the host's
  transposes of the result arrays: the network itself (`Cert.Policy.discArr`, `meanArr`, `stdArr`) of the arguments.
-/
import proofs.«175466_g38886633898314_cont_8to1_b_1584_12_alg».proof.Proof.Gen.KernelIdeal.Frame
import proofs.«175466_g38886633898314_cont_8to1_b_1584_12_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The windows' blocks -/

/-- The index maps over the grid: the windows of the input and of the three results move one block of columns per
    point. -/
theorem idx_cols : ∀ t : Fin cfg0.N,
    (win0_0.index t (0 : Fin 2) = 0 ∧ win0_0.index t (1 : Fin 2) = t.val)
    ∧ (win0_7.index t (0 : Fin 2) = 0 ∧ win0_7.index t (1 : Fin 2) = t.val)
    ∧ (win0_8.index t (0 : Fin 2) = 0 ∧ win0_8.index t (1 : Fin 2) = t.val)
    ∧ (win0_9.index t (0 : Fin 2) = 0 ∧ win0_9.index t (1 : Fin 2) = t.val) :=
  (by decide +kernel : ∀ t : Fin grid0.N, _)

/-- The weights' and biases' windows stay at block (0, 0). -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Block `t` of the transposed input is its batch columns `2048 t … 2048 t + 2047`. -/
theorem xt_blk (c : Dev nD) (t : Fin cfg0.N) (r : Fin 161) (n : Fin 2048) (b : Fin 16384) (hb : b.val = 2048 * t.val + n.val) :
    (iblk m c 0 t : FVec Ideal S161x2048 .f32) (ix2 r n) = (V m c main_call0_v0 : FVec Ideal S161x16384 .f32) (ix2 r b) := by
  obtain ⟨⟨e0, e1⟩, -⟩ := idx_cols t
  unfold iblk
  rw [View.read_apply]
  show V m c main_call0_v0 _ = V m c main_call0_v0 _
  congr 1
  funext a
  apply Fin.ext
  match a with
  | ⟨0, _⟩ => show win0_0.index t 0 * 161 + 1 * r.val = r.val; rw [e0]; omega
  | ⟨1, _⟩ => show win0_0.index t 1 * 2048 + 1 * n.val = b.val; rw [e1, hb]; omega

/-! The weights' and biases' blocks are their whole arrays. -/

theorem w1_blk (c : Dev nD) (t : Fin cfg0.N) : (iblk m c 1 t : FVec Ideal S161x256 .f32) = V m c main_arg1 := by
  obtain ⟨e0, e1⟩ := (idx_whole t).1
  funext y
  unfold iblk
  rw [View.read_apply]
  show V m c main_arg1 _ = V m c main_arg1 y
  congr 1
  funext a
  apply Fin.ext
  match a with
  | ⟨0, _⟩ => show win0_1.index t 0 * 161 + 1 * (y 0).val = (y 0).val; rw [e0]; omega
  | ⟨1, _⟩ => show win0_1.index t 1 * 256 + 1 * (y 1).val = (y 1).val; rw [e1]; omega

theorem b1c_blk (c : Dev nD) (t : Fin cfg0.N) : (iblk m c 2 t : FVec Ideal S256x1 .f32) = V m c main_call0_v3 := by
  obtain ⟨e0, e1⟩ := (idx_whole t).2.1
  funext y
  unfold iblk
  rw [View.read_apply]
  show V m c main_call0_v3 _ = V m c main_call0_v3 y
  congr 1
  funext a
  apply Fin.ext
  match a with
  | ⟨0, _⟩ => show win0_2.index t 0 * 256 + 1 * (y 0).val = (y 0).val; rw [e0]; omega
  | ⟨1, _⟩ => show win0_2.index t 1 * 1 + 1 * (y 1).val = (y 1).val; rw [e1]; omega

theorem wdt_blk (c : Dev nD) (t : Fin cfg0.N) : (iblk m c 3 t : FVec Ideal S132x256 .f32) = V m c main_call0_v1 := by
  obtain ⟨e0, e1⟩ := (idx_whole t).2.2.1
  funext y
  unfold iblk
  rw [View.read_apply]
  show V m c main_call0_v1 _ = V m c main_call0_v1 y
  congr 1
  funext a
  apply Fin.ext
  match a with
  | ⟨0, _⟩ => show win0_3.index t 0 * 132 + 1 * (y 0).val = (y 0).val; rw [e0]; omega
  | ⟨1, _⟩ => show win0_3.index t 1 * 256 + 1 * (y 1).val = (y 1).val; rw [e1]; omega

theorem bdc_blk (c : Dev nD) (t : Fin cfg0.N) : (iblk m c 4 t : FVec Ideal S132x1 .f32) = V m c main_call0_v4 := by
  obtain ⟨e0, e1⟩ := (idx_whole t).2.2.2.1
  funext y
  unfold iblk
  rw [View.read_apply]
  show V m c main_call0_v4 _ = V m c main_call0_v4 y
  congr 1
  funext a
  apply Fin.ext
  match a with
  | ⟨0, _⟩ => show win0_4.index t 0 * 132 + 1 * (y 0).val = (y 0).val; rw [e0]; omega
  | ⟨1, _⟩ => show win0_4.index t 1 * 1 + 1 * (y 1).val = (y 1).val; rw [e1]; omega

theorem wct_blk (c : Dev nD) (t : Fin cfg0.N) : (iblk m c 5 t : FVec Ideal S46x256 .f32) = V m c main_call0_v2 := by
  obtain ⟨e0, e1⟩ := (idx_whole t).2.2.2.2.1
  funext y
  unfold iblk
  rw [View.read_apply]
  show V m c main_call0_v2 _ = V m c main_call0_v2 y
  congr 1
  funext a
  apply Fin.ext
  match a with
  | ⟨0, _⟩ => show win0_5.index t 0 * 46 + 1 * (y 0).val = (y 0).val; rw [e0]; omega
  | ⟨1, _⟩ => show win0_5.index t 1 * 256 + 1 * (y 1).val = (y 1).val; rw [e1]; omega

theorem bcc_blk (c : Dev nD) (t : Fin cfg0.N) : (iblk m c 6 t : FVec Ideal S46x1 .f32) = V m c main_call0_v5 := by
  obtain ⟨e0, e1⟩ := (idx_whole t).2.2.2.2.2
  funext y
  unfold iblk
  rw [View.read_apply]
  show V m c main_call0_v5 _ = V m c main_call0_v5 y
  congr 1
  funext a
  apply Fin.ext
  match a with
  | ⟨0, _⟩ => show win0_6.index t 0 * 46 + 1 * (y 0).val = (y 0).val; rw [e0]; omega
  | ⟨1, _⟩ => show win0_6.index t 1 * 1 + 1 * (y 1).val = (y 1).val; rw [e1]; omega

/-! ## The three result arrays after the run -/

/-- What point `t` writes back through window 7 is block `t` of the discrete head on transposed data. -/
theorem disc_flushed (c : Dev nD) (t : Fin cfg0.N) :
    (dats m 0 c).flushed 7 t = ((cfg0.win 7).blk t).view.read (Elt Ideal)
      (Cert.Policy.discTArr (V m c main_call0_v0) (V m c main_arg1) (V m c main_call0_v3) (V m c main_call0_v1) (V m c main_call0_v4)) := by
  show (cfg0.win 7).cut (grid0.coords t) ((dats m 0 c).after 7 t) = _
  rw [after0_7]
  unfold out0_7
  rw [View.canon_unit_zero hz]
  simp only [View.ld_unit_zero (S := S161x256) hz, View.ld_unit_zero (S := S161x2048) hz, View.ld_unit_zero (S := S256x1) hz, View.ld_unit_zero (S := S132x256) hz, View.ld_unit_zero (S := S132x1) hz]
  rw [w1_blk, b1c_blk, wdt_blk, bdc_blk]
  obtain ⟨e0, e1⟩ := (idx_cols t).2.1
  funext y
  obtain ⟨j, n, rfl⟩ : ∃ (j : Fin 132) (n : Fin 2048), y = ix2 j n := ⟨y 0, y 1, eq_ix2 y⟩
  refine Block.disc_block_arr (V m c main_arg1) (iblk m c 0 t) (V m c main_call0_v0) (V m c main_call0_v3) t.val
    (fun r n b hb => xt_blk m c t r n b hb) (V m c main_call0_v1) (V m c main_call0_v4) j n _ ?_ ?_
  · show win0_7.index t 0 * 132 + 1 * j.val = j.val
    rw [e0]; omega
  · show win0_7.index t 1 * 2048 + 1 * n.val = 2048 * t.val + n.val
    rw [e1]; omega

/-- Every index of the discrete head's array is in the block of the point that holds its batch column. -/
theorem disc_cover (i : S132x16384.Idx) :
    ∃ t : Fin cfg0.N, (cfg0.win 7).flush t = true ∧ i ∈ ((cfg0.win 7).blk t).view.set := by
  have h0 : (i 0).val < 132 := (i 0).isLt
  have h1 : (i 1).val < 16384 := (i 1).isLt
  have hN : cfg0.N = 8 := N_0
  obtain ⟨t, ht⟩ : ∃ t : Fin cfg0.N, t.val = (i 1).val / 2048 := ⟨⟨(i 1).val / 2048, by rw [hN]; omega⟩, rfl⟩
  refine ⟨t, flush0_7 t, ?_⟩
  obtain ⟨e0, e1⟩ := (idx_cols t).2.1
  show i ∈ ((View.whole main_call0_v6_0).slice (win0_7.rect t)).set
  rw [View.set_slice_whole, Rect.mem_set_unit]
  intro a
  match a with
  | ⟨0, _⟩ =>
    show win0_7.index t 0 * 132 ≤ (i 0).val ∧ (i 0).val < win0_7.index t 0 * 132 + 132
    rw [e0]; omega
  | ⟨1, _⟩ =>
    show win0_7.index t 1 * 2048 ≤ (i 1).val ∧ (i 1).val < win0_7.index t 1 * 2048 + 2048
    rw [e1, ht]; omega

/-- So the discrete head's array ends holding the discrete head on transposed data. -/
theorem disc_final (c : Dev nD) : (dats m 0 c).arrAt 7 cfg0.N
    = Cert.Policy.discTArr (V m c main_call0_v0) (V m c main_arg1) (V m c main_call0_v3) (V m c main_call0_v1) (V m c main_call0_v4) :=
  (dats m 0 c).arrAt_eq_of_cover 7 _ (fun t _ => disc_flushed m c t) disc_cover

/-- What point `t` writes back through window 8 is block `t` of the mean on transposed data. -/
theorem mean_flushed (c : Dev nD) (t : Fin cfg0.N) :
    (dats m 0 c).flushed 8 t = ((cfg0.win 8).blk t).view.read (Elt Ideal)
      (Cert.Policy.meanTArr (V m c main_call0_v0) (V m c main_arg1) (V m c main_call0_v3) (V m c main_call0_v2) (V m c main_call0_v5)) := by
  show (cfg0.win 8).cut (grid0.coords t) ((dats m 0 c).after 8 t) = _
  rw [after0_8]
  unfold out0_8
  rw [View.canon_unit_zero hz]
  simp only [View.ld_unit_zero (S := S161x256) hz, View.ld_unit_zero (S := S161x2048) hz, View.ld_unit_zero (S := S256x1) hz, View.ld_unit_zero (S := S46x256) hz, View.ld_unit_zero (S := S46x1) hz]
  rw [w1_blk, b1c_blk, wct_blk, bcc_blk]
  obtain ⟨e0, e1⟩ := (idx_cols t).2.2.1
  funext y
  obtain ⟨j, n, rfl⟩ : ∃ (j : Fin 23) (n : Fin 2048), y = ix2 j n := ⟨y 0, y 1, eq_ix2 y⟩
  refine Block.mean_block_arr (V m c main_arg1) (iblk m c 0 t) (V m c main_call0_v0) (V m c main_call0_v3) t.val
    (fun r n b hb => xt_blk m c t r n b hb) (V m c main_call0_v2) (V m c main_call0_v5) j n _ ?_ ?_
  · show win0_8.index t 0 * 23 + 1 * j.val = j.val
    rw [e0]; omega
  · show win0_8.index t 1 * 2048 + 1 * n.val = 2048 * t.val + n.val
    rw [e1]; omega

/-- Every index of the mean's array is in the block of the point that holds its batch column. -/
theorem mean_cover (i : S23x16384.Idx) :
    ∃ t : Fin cfg0.N, (cfg0.win 8).flush t = true ∧ i ∈ ((cfg0.win 8).blk t).view.set := by
  have h0 : (i 0).val < 23 := (i 0).isLt
  have h1 : (i 1).val < 16384 := (i 1).isLt
  have hN : cfg0.N = 8 := N_0
  obtain ⟨t, ht⟩ : ∃ t : Fin cfg0.N, t.val = (i 1).val / 2048 := ⟨⟨(i 1).val / 2048, by rw [hN]; omega⟩, rfl⟩
  refine ⟨t, flush0_8 t, ?_⟩
  obtain ⟨e0, e1⟩ := (idx_cols t).2.2.1
  show i ∈ ((View.whole main_call0_v6_1).slice (win0_8.rect t)).set
  rw [View.set_slice_whole, Rect.mem_set_unit]
  intro a
  match a with
  | ⟨0, _⟩ =>
    show win0_8.index t 0 * 23 ≤ (i 0).val ∧ (i 0).val < win0_8.index t 0 * 23 + 23
    rw [e0]; omega
  | ⟨1, _⟩ =>
    show win0_8.index t 1 * 2048 ≤ (i 1).val ∧ (i 1).val < win0_8.index t 1 * 2048 + 2048
    rw [e1, ht]; omega

/-- So the mean's array ends holding the mean on transposed data. -/
theorem mean_final (c : Dev nD) : (dats m 0 c).arrAt 8 cfg0.N
    = Cert.Policy.meanTArr (V m c main_call0_v0) (V m c main_arg1) (V m c main_call0_v3) (V m c main_call0_v2) (V m c main_call0_v5) :=
  (dats m 0 c).arrAt_eq_of_cover 8 _ (fun t _ => mean_flushed m c t) mean_cover

/-- What point `t` writes back through window 9 is block `t` of the standard deviation on transposed data. -/
theorem std_flushed (c : Dev nD) (t : Fin cfg0.N) :
    (dats m 0 c).flushed 9 t = ((cfg0.win 9).blk t).view.read (Elt Ideal)
      (Cert.Policy.stdTArr (V m c main_call0_v0) (V m c main_arg1) (V m c main_call0_v3) (V m c main_call0_v2) (V m c main_call0_v5)) := by
  show (cfg0.win 9).cut (grid0.coords t) ((dats m 0 c).after 9 t) = _
  rw [after0_9]
  unfold out0_9
  rw [View.canon_unit_zero hz]
  simp only [View.ld_unit_zero (S := S161x256) hz, View.ld_unit_zero (S := S161x2048) hz, View.ld_unit_zero (S := S256x1) hz, View.ld_unit_zero (S := S46x256) hz, View.ld_unit_zero (S := S46x1) hz]
  rw [w1_blk, b1c_blk, wct_blk, bcc_blk]
  obtain ⟨e0, e1⟩ := (idx_cols t).2.2.2
  funext y
  obtain ⟨j, n, rfl⟩ : ∃ (j : Fin 23) (n : Fin 2048), y = ix2 j n := ⟨y 0, y 1, eq_ix2 y⟩
  refine Block.std_block_arr (V m c main_arg1) (iblk m c 0 t) (V m c main_call0_v0) (V m c main_call0_v3) t.val
    (fun r n b hb => xt_blk m c t r n b hb) (V m c main_call0_v2) (V m c main_call0_v5) j n _ ?_ ?_
  · show win0_9.index t 0 * 23 + 1 * j.val = j.val
    rw [e0]; omega
  · show win0_9.index t 1 * 2048 + 1 * n.val = 2048 * t.val + n.val
    rw [e1]; omega

/-- Every index of the standard deviation's array is in the block of the point that holds its batch column. -/
theorem std_cover (i : S23x16384.Idx) :
    ∃ t : Fin cfg0.N, (cfg0.win 9).flush t = true ∧ i ∈ ((cfg0.win 9).blk t).view.set := by
  have h0 : (i 0).val < 23 := (i 0).isLt
  have h1 : (i 1).val < 16384 := (i 1).isLt
  have hN : cfg0.N = 8 := N_0
  obtain ⟨t, ht⟩ : ∃ t : Fin cfg0.N, t.val = (i 1).val / 2048 := ⟨⟨(i 1).val / 2048, by rw [hN]; omega⟩, rfl⟩
  refine ⟨t, flush0_9 t, ?_⟩
  obtain ⟨e0, e1⟩ := (idx_cols t).2.2.2
  show i ∈ ((View.whole main_call0_v6_2).slice (win0_9.rect t)).set
  rw [View.set_slice_whole, Rect.mem_set_unit]
  intro a
  match a with
  | ⟨0, _⟩ =>
    show win0_9.index t 0 * 23 ≤ (i 0).val ∧ (i 0).val < win0_9.index t 0 * 23 + 23
    rw [e0]; omega
  | ⟨1, _⟩ =>
    show win0_9.index t 1 * 2048 ≤ (i 1).val ∧ (i 1).val < win0_9.index t 1 * 2048 + 2048
    rw [e1, ht]; omega

/-- So the standard deviation's array ends holding the standard deviation on transposed data. -/
theorem std_final (c : Dev nD) : (dats m 0 c).arrAt 9 cfg0.N
    = Cert.Policy.stdTArr (V m c main_call0_v0) (V m c main_arg1) (V m c main_call0_v3) (V m c main_call0_v2) (V m c main_call0_v5) :=
  (dats m 0 c).arrAt_eq_of_cover 9 _ (fun t _ => std_flushed m c t) std_cover

/-! ## The arrays the region finds: the host's transposes and column reshapes of the arguments -/

theorem V_xt (c : Dev nD) : (V m c main_call0_v0 : FVec Ideal S161x16384 .f32)
    = transpose S161x16384 [1, 0] (m ((c : Thread nD τ).loc main_arg0)) transposes_S16384x161_S161x16384_1_0 := by
  show StableHlo.after hostOps0 (fun b => m (c, b)) (Proc.devRef .tc main_call0_v0) = _
  after_results
  rfl
theorem V_wdt (c : Dev nD) : (V m c main_call0_v1 : FVec Ideal S132x256 .f32)
    = transpose S132x256 [1, 0] (m ((c : Thread nD τ).loc main_arg3)) transposes_S256x132_S132x256_1_0 := by
  show StableHlo.after hostOps0 (fun b => m (c, b)) (Proc.devRef .tc main_call0_v1) = _
  after_results
  rfl
theorem V_wct (c : Dev nD) : (V m c main_call0_v2 : FVec Ideal S46x256 .f32)
    = transpose S46x256 [1, 0] (m ((c : Thread nD τ).loc main_arg5)) transposes_S256x46_S46x256_1_0 := by
  show StableHlo.after hostOps0 (fun b => m (c, b)) (Proc.devRef .tc main_call0_v2) = _
  after_results
  rfl
theorem V_b1c (c : Dev nD) : (V m c main_call0_v3 : FVec Ideal S256x1 .f32)
    = shapeCast S256x1 (m ((c : Thread nD τ).loc main_arg2)) shapeCasts_S256_S256x1 := by
  show StableHlo.after hostOps0 (fun b => m (c, b)) (Proc.devRef .tc main_call0_v3) = _
  after_results
  rfl
theorem V_bdc (c : Dev nD) : (V m c main_call0_v4 : FVec Ideal S132x1 .f32)
    = shapeCast S132x1 (m ((c : Thread nD τ).loc main_arg4)) shapeCasts_S132_S132x1 := by
  show StableHlo.after hostOps0 (fun b => m (c, b)) (Proc.devRef .tc main_call0_v4) = _
  after_results
  rfl
theorem V_bcc (c : Dev nD) : (V m c main_call0_v5 : FVec Ideal S46x1 .f32)
    = shapeCast S46x1 (m ((c : Thread nD τ).loc main_arg6)) shapeCasts_S46_S46x1 := by
  show StableHlo.after hostOps0 (fun b => m (c, b)) (Proc.devRef .tc main_call0_v5) = _
  after_results
  rfl

/-- The transposed input at `(r, b)` is the input at `(b, r)`; likewise the two heads' weights. -/
theorem xt_apply (c : Dev nD) (r : Fin 161) (b : Fin 16384) :
    (V m c main_call0_v0 : FVec Ideal S161x16384 .f32) (ix2 r b) = (m ((c : Thread nD τ).loc main_arg0) : FVec Ideal S16384x161 .f32) (ix2 b r) := by
  rw [V_xt]
  exact transpose_apply [1, 0] _ _ (ix2 r b) (ix2 b r) (fun a => match a with | ⟨0, _⟩ => rfl | ⟨1, _⟩ => rfl)
theorem wdt_apply (c : Dev nD) (j : Fin 132) (k : Fin 256) :
    (V m c main_call0_v1 : FVec Ideal S132x256 .f32) (ix2 j k) = (m ((c : Thread nD τ).loc main_arg3) : FVec Ideal S256x132 .f32) (ix2 k j) := by
  rw [V_wdt]
  exact transpose_apply [1, 0] _ _ (ix2 j k) (ix2 k j) (fun a => match a with | ⟨0, _⟩ => rfl | ⟨1, _⟩ => rfl)
theorem wct_apply (c : Dev nD) (j : Fin 46) (k : Fin 256) :
    (V m c main_call0_v2 : FVec Ideal S46x256 .f32) (ix2 j k) = (m ((c : Thread nD τ).loc main_arg5) : FVec Ideal S256x46 .f32) (ix2 k j) := by
  rw [V_wct]
  exact transpose_apply [1, 0] _ _ (ix2 j k) (ix2 k j) (fun a => match a with | ⟨0, _⟩ => rfl | ⟨1, _⟩ => rfl)
/-- A bias column at `(k, 0)` is the bias at `k`. -/
theorem b1c_apply (c : Dev nD) (k : Fin 256) :
    (V m c main_call0_v3 : FVec Ideal S256x1 .f32) (ix2 k (0 : Fin 1)) = (m ((c : Thread nD τ).loc main_arg2) : FVec Ideal S256 .f32) (ix1 k) := by
  rw [V_b1c]
  exact Cert.LibColumn.shapeCast_a_a1_apply _ _ k 0
theorem bdc_apply (c : Dev nD) (j : Fin 132) :
    (V m c main_call0_v4 : FVec Ideal S132x1 .f32) (ix2 j (0 : Fin 1)) = (m ((c : Thread nD τ).loc main_arg4) : FVec Ideal S132 .f32) (ix1 j) := by
  rw [V_bdc]
  exact Cert.LibColumn.shapeCast_a_a1_apply _ _ j 0
theorem bcc_apply (c : Dev nD) (j : Fin 46) :
    (V m c main_call0_v5 : FVec Ideal S46x1 .f32) (ix2 j (0 : Fin 1)) = (m ((c : Thread nD τ).loc main_arg6) : FVec Ideal S46 .f32) (ix1 j) := by
  rw [V_bcc]
  exact Cert.LibColumn.shapeCast_a_a1_apply _ _ j 0

/-! ## The program's three results: the host's transposes of the result arrays -/

theorem tail_disc (c : Dev nD) :
    Pipeline.afterTail₀ cfgs (dats m) 0 (V0 m) [hostOps1] c main_v0_0
      = transpose S16384x132 [1, 0] ((dats m 0 c).arrAt 7 cfg0.N) transposes_S132x16384_S16384x132_1_0 := by
  have h := Pipeline.withArrays_arr (cfgs 0).spec launch0.win.arr_inj c (V0 m c) (fun w => (dats m 0 c).arrAt w (cfgs 0).N) 7
  unfold Pipeline.afterTail₀
  show StableHlo.after hostOps1 _ (Proc.devRef .tc main_v0_0) = _
  after_results
  exact congrArg (fun x : FVec Ideal S132x16384 .f32 => transpose S16384x132 [1, 0] x transposes_S132x16384_S16384x132_1_0) h

theorem tail_mean (c : Dev nD) :
    Pipeline.afterTail₀ cfgs (dats m) 0 (V0 m) [hostOps1] c main_v0_1
      = transpose S16384x23 [1, 0] ((dats m 0 c).arrAt 8 cfg0.N) transposes_S23x16384_S16384x23_1_0 := by
  have h := Pipeline.withArrays_arr (cfgs 0).spec launch0.win.arr_inj c (V0 m c) (fun w => (dats m 0 c).arrAt w (cfgs 0).N) 8
  unfold Pipeline.afterTail₀
  show StableHlo.after hostOps1 _ (Proc.devRef .tc main_v0_1) = _
  after_results
  exact congrArg (fun x : FVec Ideal S23x16384 .f32 => transpose S16384x23 [1, 0] x transposes_S23x16384_S16384x23_1_0) h

theorem tail_std (c : Dev nD) :
    Pipeline.afterTail₀ cfgs (dats m) 0 (V0 m) [hostOps1] c main_v0_2
      = transpose S16384x23 [1, 0] ((dats m 0 c).arrAt 9 cfg0.N) transposes_S23x16384_S16384x23_1_0 := by
  have h := Pipeline.withArrays_arr (cfgs 0).spec launch0.win.arr_inj c (V0 m c) (fun w => (dats m 0 c).arrAt w (cfgs 0).N) 9
  unfold Pipeline.afterTail₀
  show StableHlo.after hostOps1 _ (Proc.devRef .tc main_v0_2) = _
  after_results
  exact congrArg (fun x : FVec Ideal S23x16384 .f32 => transpose S16384x23 [1, 0] x transposes_S23x16384_S16384x23_1_0) h

/-! ## The results as the network's arrays of the arguments -/

/-- The discrete head: the host's transpose of the kernel's array is the network's array. -/
theorem result_disc (c : Dev nD) :
    transpose S16384x132 [1, 0] ((dats m 0 c).arrAt 7 cfg0.N) transposes_S132x16384_S16384x132_1_0
      = Cert.Policy.discArr (m ((c : Thread nD τ).loc main_arg0)) (m ((c : Thread nD τ).loc main_arg1)) (m ((c : Thread nD τ).loc main_arg2))
          (m ((c : Thread nD τ).loc main_arg3)) (m ((c : Thread nD τ).loc main_arg4)) := by
  rw [disc_final, V_main_arg1]
  funext i
  obtain ⟨b, j, rfl⟩ : ∃ (b : Fin 16384) (j : Fin 132), i = ix2 b j := ⟨i 0, i 1, eq_ix2 i⟩
  refine (transpose_apply [1, 0] _ _ (ix2 b j) (ix2 j b) (fun a => match a with | ⟨0, _⟩ => rfl | ⟨1, _⟩ => rfl)).trans ?_
  exact Cert.Policy.discT_eq _ _ _ _ _ _ _ (xt_apply m c) (b1c_apply m c) _ _ (wdt_apply m c) (bdc_apply m c) j b

/-- The mean. -/
theorem result_mean (c : Dev nD) :
    transpose S16384x23 [1, 0] ((dats m 0 c).arrAt 8 cfg0.N) transposes_S23x16384_S16384x23_1_0
      = Cert.Policy.meanArr (m ((c : Thread nD τ).loc main_arg0)) (m ((c : Thread nD τ).loc main_arg1)) (m ((c : Thread nD τ).loc main_arg2))
          (m ((c : Thread nD τ).loc main_arg5)) (m ((c : Thread nD τ).loc main_arg6)) := by
  rw [mean_final, V_main_arg1]
  funext i
  obtain ⟨b, j, rfl⟩ : ∃ (b : Fin 16384) (j : Fin 23), i = ix2 b j := ⟨i 0, i 1, eq_ix2 i⟩
  refine (transpose_apply [1, 0] _ _ (ix2 b j) (ix2 j b) (fun a => match a with | ⟨0, _⟩ => rfl | ⟨1, _⟩ => rfl)).trans ?_
  exact Cert.Policy.meanT_eq _ _ _ _ _ _ _ (xt_apply m c) (b1c_apply m c) _ _ (wct_apply m c) (bcc_apply m c) j b

/-- The standard deviation. -/
theorem result_std (c : Dev nD) :
    transpose S16384x23 [1, 0] ((dats m 0 c).arrAt 9 cfg0.N) transposes_S23x16384_S16384x23_1_0
      = Cert.Policy.stdArr (m ((c : Thread nD τ).loc main_arg0)) (m ((c : Thread nD τ).loc main_arg1)) (m ((c : Thread nD τ).loc main_arg2))
          (m ((c : Thread nD τ).loc main_arg5)) (m ((c : Thread nD τ).loc main_arg6)) := by
  rw [std_final, V_main_arg1]
  funext i
  obtain ⟨b, j, rfl⟩ : ∃ (b : Fin 16384) (j : Fin 23), i = ix2 b j := ⟨i 0, i 1, eq_ix2 i⟩
  refine (transpose_apply [1, 0] _ _ (ix2 b j) (ix2 j b) (fun a => match a with | ⟨0, _⟩ => rfl | ⟨1, _⟩ => rfl)).trans ?_
  exact Cert.Policy.stdT_eq _ _ _ _ _ _ _ (xt_apply m c) (b1c_apply m c) _ _ (wct_apply m c) (bcc_apply m c) j b

/-! ## The run -/

/-- Every weakly fair execution of the program ends with its three results at the network's arrays of the arguments,
    and the arguments unchanged. -/
theorem run : θ_run defs (onTc (τ := τ) (main (F := Ideal))) ⟨m, fun _ => 0, ρ⟩ fun r => ∀ c : Dev nD,
      r.2.mem ((c.tc : Thread nD τ).loc main_v0_0)
        = Cert.Policy.discArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v0_1)
        = Cert.Policy.meanArr (m ((c : Thread nD τ).loc main_arg0)) (m ((c : Thread nD τ).loc main_arg1)) (m ((c : Thread nD τ).loc main_arg2))
            (m ((c : Thread nD τ).loc main_arg5)) (m ((c : Thread nD τ).loc main_arg6))
      ∧ r.2.mem ((c.tc : Thread nD τ).loc main_v0_2)
        = Cert.Policy.stdArr (m ((c : Thread nD τ).loc main_arg0)) (m ((c : Thread nD τ).loc main_arg1)) (m ((c : Thread nD τ).loc main_arg2))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v0_0 (Pipeline.mem_restRefs_of main_v0_0 (by decide) (by decide))).trans ((tail_disc m c).trans (result_disc m c)),
      ((h c).2 main_v0_1 (Pipeline.mem_restRefs_of main_v0_1 (by decide) (by decide))).trans ((tail_mean m c).trans (result_mean m c)),
      ((h c).2 main_v0_2 (Pipeline.mem_restRefs_of main_v0_2 (by decide) (by decide))).trans ((tail_std m c).trans (result_std m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Arrays

end
-- ==== Proof.lean ====
/-
  The certificate of the fused policy-network kernel against its plain reference, over the extended reals.

  Both programs compute, for each of 16384 batch rows, a hidden layer `h = leaky (x · W1 + b1)`, a discrete head
  `h · Wd + bd`, and a continuous head `h · Wc + bc` whose first 23 columns are clipped to [-1, 1] (the mean) and
  whose last 23 to [0, 1] (the standard deviation). The kernel works on transposed data, a block of 2048 batch
  columns per grid point, and multiplies weight by activation where the reference multiplies activation by weight;
  the slope of the rectifier and the clip bounds are the same words in both programs. At the extended reals the two
  agree element by element: the products commute under the sums, and nothing else differs, so the precondition is
  never opened.

  `Cert.Policy` states the network as functions of coordinates. `Cert.ReferenceIdeal.Reads` reads the reference's
  run as those functions, `Cert.KernelIdeal.Block` the kernel's body on one block, `Cert.KernelIdeal.Arrays` the
  kernel's result arrays after the run and the host's transposes around the region. The two word-level and ideal
  frames of the kernel are the generated ones; the reference's frame is its run with the results dropped; the idealized
  kernel is the kernel's own text read at the extended reals, so `preserves` asks nothing.
-/
import proofs.«175466_g38886633898314_cont_8to1_b_1584_12_alg».proof.Defs
import proofs.«175466_g38886633898314_cont_8to1_b_1584_12_alg».proof.Proof.Gen.Kernel
import proofs.«175466_g38886633898314_cont_8to1_b_1584_12_alg».proof.Proof.Gen.Kernel.Skeleton
import proofs.«175466_g38886633898314_cont_8to1_b_1584_12_alg».proof.Proof.Gen.Kernel.Launch
import proofs.«175466_g38886633898314_cont_8to1_b_1584_12_alg».proof.Proof.Gen.Kernel.Points
import proofs.«175466_g38886633898314_cont_8to1_b_1584_12_alg».proof.Proof.Gen.Kernel.Frame
import proofs.«175466_g38886633898314_cont_8to1_b_1584_12_alg».proof.Proof.Gen.KernelIdeal
import proofs.«175466_g38886633898314_cont_8to1_b_1584_12_alg».proof.Proof.Gen.KernelIdeal.Skeleton
import proofs.«175466_g38886633898314_cont_8to1_b_1584_12_alg».proof.Proof.Gen.KernelIdeal.Launch
import proofs.«175466_g38886633898314_cont_8to1_b_1584_12_alg».proof.Proof.Gen.KernelIdeal.Points
import proofs.«175466_g38886633898314_cont_8to1_b_1584_12_alg».proof.Proof.Gen.KernelIdeal.Frame
import proofs.«175466_g38886633898314_cont_8to1_b_1584_12_alg».proof.Proof.Gen.ReferenceIdeal
import proofs.«175466_g38886633898314_cont_8to1_b_1584_12_alg».proof.Proof.Gen.ReferenceIdeal.Run
import proofs.«175466_g38886633898314_cont_8to1_b_1584_12_alg».proof.Proof.Gen.ReferenceIdeal.Read
import proofs.«175466_g38886633898314_cont_8to1_b_1584_12_alg».proof.Proof.Gen.Pre_finite_inputs
import proofs.«175466_g38886633898314_cont_8to1_b_1584_12_alg».proof.Proof.ReferenceReads
import proofs.«175466_g38886633898314_cont_8to1_b_1584_12_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the network's three arrays of the arguments: the kernel by its blocks and the host's
    transposes, the reference by its run read index by index; the arguments agree, so the arrays are the same. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v12_eq, Cert.ReferenceIdeal.Reads.disc_eq, a0, a1, a2, a3, a4]
  · rw [Cert.ReferenceIdeal.Read.val_main_v19_eq, Cert.ReferenceIdeal.Reads.mean_eq, a0, a1, a2, a5, a6]
  · rw [Cert.ReferenceIdeal.Read.val_main_v20_eq, Cert.ReferenceIdeal.Reads.std_eq, a0, a1, a2, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
